-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S8192x64 : Shape := ⟨2, ![8192, 64]⟩
abbrev S8192 : Shape := ⟨1, ![8192]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S64x256 : Shape := ⟨2, ![64, 256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S64x256 : S_.BroadcastsInDim S64x256 (![] : Fin 0 → Fin S64x256.rank)
  reducesTo_S64x256_S_d0_1 : S64x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S8192 : S_.BroadcastsInDim S8192 (![] : Fin 0 → Fin S8192.rank)
  reducesTo_S8192_S_d0 : S8192.ReducesTo [0] S_

variable [Facts]

def fn_part5 {F : FTy → Type} [FloatOps F] (main_v82 : IVec S_ 1) (main_v84 : IVec S8192 1) : IVec S_ 1 :=
  let main_c_33 : IVec S_ 1 := constantI S_ 1 1#1
  let main_v85 : IVec S_ 1 := (fun x v => Host.reduce IntOp.andi x v reducesTo_S8192_S_d0 h_S_) main_v84 main_c_33
  let main_v86 : IVec S_ 1 := andi main_v82 main_v85
  main_v86

def fn_part4 {F : FTy → Type} [FloatOps F] (main_arg3 : IVec S8192 32) (main_arg16 : FVec F S256x1 .f32) (main_arg17 : FVec F S1 .f32) (main_v63 : IVec S_ 1) (main_v67 : IVec S_ 1) : IVec S_ 1 :=
  let main_v68 : IVec S_ 1 := andi main_v63 main_v67
  let main_v69 : FVec F S256x1 .f32 := Host.absf main_arg16
  let main_cst_26 : FVec F S_ .f32 := constant S_ .f32 0x7F800000#32
  let main_v70 : FVec F S256x1 .f32 := broadcastInDim S256x1 ![] bcast_S_S256x1 main_cst_26
  let main_v71 : IVec S256x1 1 := cmpf .olt main_v69 main_v70
  let main_c_27 : IVec S_ 1 := constantI S_ 1 1#1
  let main_v72 : IVec S_ 1 := (fun x v => Host.reduce IntOp.andi x v reducesTo_S256x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_c_30 : IVec S_ 32 := constantI S_ 32 4294917296#32
  let main_v79 : IVec S8192 32 := broadcastInDim S8192 ![] bcast_S_S8192 main_c_30
  let main_v80 : IVec S8192 1 := cmpi .sge main_arg3 main_v79
  let main_c_31 : IVec S_ 1 := constantI S_ 1 1#1
  let main_v81 : IVec S_ 1 := (fun x v => Host.reduce IntOp.andi x v reducesTo_S8192_S_d0 h_S_) main_v80 main_c_31
  let main_v82 : IVec S_ 1 := andi main_v78 main_v81
  let main_c_32 : IVec S_ 32 := constantI S_ 32 50000#32
  let main_v83 : IVec S8192 32 := broadcastInDim S8192 ![] bcast_S_S8192 main_c_32
  let main_v84 : IVec S8192 1 := cmpi .slt main_arg3 main_v83
  fn_part5 (F := F) main_v82 main_v84

def fn_part3 {F : FTy → Type} [FloatOps F] (main_arg3 : IVec S8192 32) (main_arg13 : FVec F S256 .f32) (main_arg14 : FVec F S64x256 .f32) (main_arg15 : FVec F S256 .f32) (main_arg16 : FVec F S256x1 .f32) (main_arg17 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S64x256 .f32 := Host.absf main_arg14
  let main_cst_22 : FVec F S_ .f32 := constant S_ .f32 0x7F800000#32
  let main_v60 : FVec F S64x256 .f32 := broadcastInDim S64x256 ![] bcast_S_S64x256 main_cst_22
  let main_v61 : IVec S64x256 1 := cmpf .olt main_v59 main_v60
  let main_c_23 : IVec S_ 1 := constantI S_ 1 1#1
  let main_v62 : IVec S_ 1 := (fun x v => Host.reduce IntOp.andi x v reducesTo_S64x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg3 main_arg16 main_arg17 main_v63 main_v67

def fn_part2 {F : FTy → Type} [FloatOps F] (main_arg3 : IVec S8192 32) (main_arg9 : FVec F S512 .f32) (main_arg10 : FVec F S512x256 .f32) (main_arg11 : FVec F S256 .f32) (main_arg12 : FVec F S256 .f32) (main_arg13 : FVec F S256 .f32) (main_arg14 : FVec F S64x256 .f32) (main_arg15 : FVec F S256 .f32) (main_arg16 : FVec F S256x1 .f32) (main_arg17 : FVec F S1 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg10
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg3 main_arg13 main_arg14 main_arg15 main_arg16 main_arg17 main_v48 main_v49 main_v50

def fn_part1 {F : FTy → Type} [FloatOps F] (main_arg3 : IVec S8192 32) (main_arg6 : FVec F S256x512 .f32) (main_arg7 : FVec F S512 .f32) (main_arg8 : FVec F S512 .f32) (main_arg9 : FVec F S512 .f32) (main_arg10 : FVec F S512x256 .f32) (main_arg11 : FVec F S256 .f32) (main_arg12 : FVec F S256 .f32) (main_arg13 : FVec F S256 .f32) (main_arg14 : FVec F S64x256 .f32) (main_arg15 : FVec F S256 .f32) (main_arg16 : FVec F S256x1 .f32) (main_arg17 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg6
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg3 main_arg9 main_arg10 main_arg11 main_arg12 main_arg13 main_arg14 main_arg15 main_arg16 main_arg17 main_v33

def fn {F : FTy → Type} [FloatOps F] (main_arg0 : FVec F S50000x128 .f32) (main_arg1 : IVec S2x800000 32) (main_arg2 : FVec F S8192x64 .f32) (main_arg3 : IVec S8192 32) (main_arg4 : FVec F S128x256 .f32) (main_arg5 : FVec F S256 .f32) (main_arg6 : FVec F S256x512 .f32) (main_arg7 : FVec F S512 .f32) (main_arg8 : FVec F S512 .f32) (main_arg9 : FVec F S512 .f32) (main_arg10 : FVec F S512x256 .f32) (main_arg11 : FVec F S256 .f32) (main_arg12 : FVec F S256 .f32) (main_arg13 : FVec F S256 .f32) (main_arg14 : FVec F S64x256 .f32) (main_arg15 : FVec F S256 .f32) (main_arg16 : FVec F S256x1 .f32) (main_arg17 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S8192x64 .f32 := Host.absf main_arg2
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg3 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S2x800000 : Shape := ⟨2, ![2, 800000]⟩
abbrev S8192x64 : Shape := ⟨2, ![8192, 64]⟩
abbrev S8192 : Shape := ⟨1, ![8192]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S64x256 : Shape := ⟨2, ![64, 256]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S8192x1 : Shape := ⟨2, ![8192, 1]⟩
abbrev S1x1 : Shape := ⟨2, ![1, 1]⟩
abbrev S8192x128 : Shape := ⟨2, ![8192, 128]⟩
abbrev S1x256 : Shape := ⟨2, ![1, 256]⟩
abbrev S1x512 : Shape := ⟨2, ![1, 512]⟩
abbrev S2048x128 : Shape := ⟨2, ![2048, 128]⟩
abbrev S2048x64 : Shape := ⟨2, ![2048, 64]⟩
abbrev S2048x1 : Shape := ⟨2, ![2048, 1]⟩
abbrev S2048x256 : Shape := ⟨2, ![2048, 256]⟩
abbrev S2048x512 : Shape := ⟨2, ![2048, 512]⟩
abbrev S2048 : Shape := ⟨1, ![2048]⟩

abbrev nBuf : Space → Nat
  | .hbm => 110
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S8192x64, .f32⟩
  | .hbm, ⟨3, _⟩ => ⟨S8192, .i32⟩
  | .hbm, ⟨4, _⟩ => ⟨S128x256, .f32⟩
  | .hbm, ⟨5, _⟩ => ⟨S256, .f32⟩
  | .hbm, ⟨6, _⟩ => ⟨S256x512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S64x256, .f32⟩
  | .hbm, ⟨15, _⟩ => ⟨S256, .f32⟩
  | .hbm, ⟨16, _⟩ => ⟨S256x1, .f32⟩
  | .hbm, ⟨17, _⟩ => ⟨S1, .f32⟩
  | .hbm, ⟨18, _⟩ => ⟨S50000, .i32⟩
  | .hbm, ⟨19, _⟩ => ⟨S1x800000, .i32⟩
  | .hbm, ⟨20, _⟩ => ⟨S800000, .i32⟩
  | .hbm, ⟨21, _⟩ => ⟨S850000, .i32⟩
  | .hbm, ⟨22, _⟩ => ⟨S1x800000, .i32⟩
  | .hbm, ⟨23, _⟩ => ⟨S800000, .i32⟩
  | .hbm, ⟨24, _⟩ => ⟨S850000, .i32⟩
  | .hbm, ⟨25, _⟩ => ⟨S_, .f32⟩
  | .hbm, ⟨26, _⟩ => ⟨S850000, .f32⟩
  | .hbm, ⟨27, _⟩ => ⟨S_, .f32⟩
  | .hbm, ⟨28, _⟩ => ⟨S50000, .f32⟩
  | .hbm, ⟨29, _⟩ => ⟨S850000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S50000x128, .bf16⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x128, .bf16⟩
  | .hbm, ⟨68, _⟩ => ⟨S850000x128, .f32⟩
  | .hbm, ⟨69, _⟩ => ⟨S850000x1, .f32⟩
  | .hbm, ⟨70, _⟩ => ⟨S850000x128, .f32⟩
  | .hbm, ⟨71, _⟩ => ⟨S850000x128, .f32⟩
  | .hbm, ⟨72, _⟩ => ⟨S_, .f32⟩
  | .hbm, ⟨73, _⟩ => ⟨S50000x128, .f32⟩
  | .hbm, ⟨74, _⟩ => ⟨S850000x1, .i32⟩
  | .hbm, ⟨75, _⟩ => ⟨S50000x128, .f32⟩
  | .hbm, ⟨76, _⟩ => ⟨S_, .i32⟩
  | .hbm, ⟨77, _⟩ => ⟨S8192, .i32⟩
  | .hbm, ⟨78, _⟩ => ⟨S8192, .i1⟩
  | .hbm, ⟨79, _⟩ => ⟨S_, .i32⟩
  | .hbm, ⟨80, _⟩ => ⟨S8192, .i32⟩
  | .hbm, ⟨81, _⟩ => ⟨S8192, .i32⟩
  | .hbm, ⟨82, _⟩ => ⟨S8192, .i32⟩
  | .hbm, ⟨83, _⟩ => ⟨S8192x1, .i32⟩
  | .hbm, ⟨84, _⟩ => ⟨S1, .i32⟩
  | .hbm, ⟨85, _⟩ => ⟨S_, .i32⟩
  | .hbm, ⟨86, _⟩ => ⟨S8192x1, .i32⟩
  | .hbm, ⟨87, _⟩ => ⟨S8192x1, .i1⟩
  | .hbm, ⟨88, _⟩ => ⟨S1x1, .i32⟩
  | .hbm, ⟨89, _⟩ => ⟨S8192x1, .i32⟩
  | .hbm, ⟨90, _⟩ => ⟨S8192x1, .i1⟩
  | .hbm, ⟨91, _⟩ => ⟨S8192x1, .i1⟩
  | .hbm, ⟨92, _⟩ => ⟨S_, .i1⟩
  | .hbm, ⟨93, _⟩ => ⟨S8192, .i1⟩
  | .hbm, ⟨94, _⟩ => ⟨S8192x128, .f32⟩
  | .hbm, ⟨95, _⟩ => ⟨S8192x128, .i1⟩
  | .hbm, ⟨96, _⟩ => ⟨S_, .f32⟩
  | .hbm, ⟨97, _⟩ => ⟨S8192x128, .f32⟩
  | .hbm, ⟨98, _⟩ => ⟨S8192x128, .f32⟩
  | .hbm, ⟨99, _⟩ => ⟨S1x256, .f32⟩
  | .hbm, ⟨100, _⟩ => ⟨S1x512, .f32⟩
  | .hbm, ⟨101, _⟩ => ⟨S1x512, .f32⟩
  | .hbm, ⟨102, _⟩ => ⟨S1x512, .f32⟩
  | .hbm, ⟨103, _⟩ => ⟨S1x256, .f32⟩
  | .hbm, ⟨104, _⟩ => ⟨S1x256, .f32⟩
  | .hbm, ⟨105, _⟩ => ⟨S1x256, .f32⟩
  | .hbm, ⟨106, _⟩ => ⟨S1x256, .f32⟩
  | .hbm, ⟨107, _⟩ => ⟨S1x256, .f32⟩
  | .hbm, ⟨108, _⟩ => ⟨S1x1, .f32⟩
  | .hbm, ⟨109, _⟩ => ⟨S8192x1, .f32⟩
  | .local _ .vmem, ⟨0, _⟩ => ⟨S2048x128, .f32⟩
  | .local _ .vmem, ⟨1, _⟩ => ⟨S2048x128, .f32⟩
  | .local _ .vmem, ⟨2, _⟩ => ⟨S2048x64, .f32⟩
  | .local _ .vmem, ⟨3, _⟩ => ⟨S2048x64, .f32⟩
  | .local _ .vmem, ⟨4, _⟩ => ⟨S128x256, .f32⟩
  | .local _ .vmem, ⟨5, _⟩ => ⟨S1x256, .f32⟩
  | .local _ .vmem, ⟨6, _⟩ => ⟨S256x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S512x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S64x256, .f32⟩
  | .local _ .vmem, ⟨15, _⟩ => ⟨S1x256, .f32⟩
  | .local _ .vmem, ⟨16, _⟩ => ⟨S1x256, .f32⟩
  | .local _ .vmem, ⟨17, _⟩ => ⟨S1x1, .f32⟩
  | .local _ .vmem, ⟨18, _⟩ => ⟨S2048x1, .f32⟩
  | .local _ .vmem, ⟨19, _⟩ => ⟨S2048x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_8 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_call1_c : Ref sig .tc := ⟨.hbm, 76, rfl⟩
abbrev main_call1_v0 : Ref sig .tc := ⟨.hbm, 77, rfl⟩
abbrev main_call1_v1 : Ref sig .tc := ⟨.hbm, 78, rfl⟩
abbrev main_call1_c_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_c_1 : Ref sig .tc := ⟨.hbm, 84, rfl⟩
abbrev main_call1_c_2 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_c_3 : Ref sig .tc := ⟨.hbm, 92, rfl⟩
abbrev main_call1_v12 : Ref sig .tc := ⟨.hbm, 93, rfl⟩
abbrev main_call1_v13 : Ref sig .tc := ⟨.hbm, 94, rfl⟩
abbrev main_call1_v14 : Ref sig .tc := ⟨.hbm, 95, rfl⟩
abbrev main_call1_cst : Ref sig .tc := ⟨.hbm, 96, rfl⟩
abbrev main_call1_v15 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2048x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x128_0 : S8192.BroadcastsInDim S8192x128 (![0] : Fin 1 → Fin S8192x128.rank)
  bcast_S_S8192x128 : S_.BroadcastsInDim S8192x128 (![] : Fin 0 → Fin S8192x128.rank)
  shapeCasts_S256_S1x256 : S256.ShapeCasts S1x256
  shapeCasts_S512_S1x512 : S512.ShapeCasts S1x512
  transposes_S256x1_S1x256_1_0 : S256x1.Transposes [1, 0] S1x256
  shapeCasts_S1_S1x1 : S1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  inb_S512x256_S512x256_0_0 : ∀ a, (![0, 0] : Fin 2 → Nat) a + S512x256.size a ≤ S512x256.size a
  h_S512x256 : 0 < S512x256.numel
  reduces_S2048x256_S2048 : S2048x256.Reduces [1] S2048
  broadcasts_S2048x1_S2048x256 : S2048x1.Broadcasts S2048x256
  inb_S2048x64_S2048x64_0_0 : ∀ a, (![0, 0] : Fin 2 → Nat) a + S2048x64.size a ≤ S2048x64.size a
  h_S2048x64 : 0 < S2048x64.numel
  inb_S64x256_S64x256_0_0 : ∀ a, (![0, 0] : Fin 2 → Nat) a + S64x256.size a ≤ S64x256.size a
  h_S64x256 : 0 < S64x256.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S8192x1_S8192x128_1_0_n_n_0_1_1128_wf : GatherDims.WF S50000x128 S8192x1 S8192x128 [1] [0] [] [0] [] 1 ![1, 128]
  dot_S2048x128_S128x256_S2048x256_1_0_0_1_n_n_wf : DotDims.WF S2048x128 S128x256 S2048x256 [1] [0] [0] [1] [] []
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  dot_S2048x64_S64x256_S2048x256_1_0_0_1_n_n_wf : DotDims.WF S2048x64 S64x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S8192x64.size a
  hwx0_1 : ∀ i : grid0.Coords, EltTy.bits .f32 = 32 ∨ (Rect.block (s := S8192x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .f32 = 32 ∨ (Rect.block (s := S512x256) S512x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x256.size a ≤ S64x256.size a
  hwx0_12 : ∀ i : grid0.Coords, EltTy.bits .f32 = 32 ∨ (Rect.block (s := S64x256) S64x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2048x1.size a ≤ S8192x1.size a
  hwx0_16 : ∀ i : grid0.Coords, EltTy.bits .f32 = 32 ∨ (Rect.block (s := S8192x1) S2048x1.size (cc0_transform_16 i) (hinb0_16 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S8192x1_S8192x128_1_0_n_n_0_1_1128 : GatherDims S50000x128 S8192x1 S8192x128 where
  offsetDims := [1]
  collapsedSliceDims := [0]
  operandBatchingDims := []
  startIndicesBatchingDims := []
  startIndexMap := [0]
  indexVectorDim := 1
  sliceSizes := ![1, 128]
  wf := gather_S50000x128_S8192x1_S8192x128_1_0_n_n_0_1_1128_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf

abbrev win0_0 : Pipeline.Window sig grid0 :=
  Pipeline.Window.ofSpec (Memref.whole main_v45) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v47) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v50) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v51) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v52) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S64x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v53) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v54) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v55) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v56) S2048x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S8192x64 : Shape := ⟨2, ![8192, 64]⟩
abbrev S8192 : Shape := ⟨1, ![8192]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S64x256 : Shape := ⟨2, ![64, 256]⟩
abbrev S256x1 : Shape := ⟨2, ![256, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S8192x1 : Shape := ⟨2, ![8192, 1]⟩
abbrev S8192x256 : Shape := ⟨2, ![8192, 256]⟩
abbrev S8192x512 : Shape := ⟨2, ![8192, 512]⟩
abbrev S1x512 : Shape := ⟨2, ![1, 512]⟩
abbrev S1x1 : Shape := ⟨2, ![1, 1]⟩

abbrev nBuf : Space → Nat
  | .hbm => 171
  | .vmem => 0
  | .smem => 0
  | _ => 0

abbrev hbmTy0_0 (i : Nat) : BufTy := match i % 128 with
  | 0 => ⟨S50000x128, .f32⟩
  | 1 => ⟨S2x800000, .i32⟩
  | 2 => ⟨S8192x64, .f32⟩
  | 3 => ⟨S8192, .i32⟩
  | 4 => ⟨S128x256, .f32⟩
  | 5 => ⟨S256, .f32⟩
  | 6 => ⟨S256x512, .f32⟩
  | 7 => ⟨S512, .f32⟩
  | 8 => ⟨S512, .f32⟩
  | 9 => ⟨S512, .f32⟩
  | 10 => ⟨S512x256, .f32⟩
  | 11 => ⟨S256, .f32⟩
  | 12 => ⟨S256, .f32⟩
  | 13 => ⟨S256, .f32⟩
  | 14 => ⟨S64x256, .f32⟩
  | 15 => ⟨S256, .f32⟩
  | 16 => ⟨S256x1, .f32⟩
  | 17 => ⟨S1, .f32⟩
  | 18 => ⟨S50000, .i32⟩
  | 19 => ⟨S1x800000, .i32⟩
  | 20 => ⟨S800000, .i32⟩
  | 21 => ⟨S850000, .i32⟩
  | 22 => ⟨S1x800000, .i32⟩
  | 23 => ⟨S800000, .i32⟩
  | 24 => ⟨S850000, .i32⟩
  | 25 => ⟨S_, .f32⟩
  | 26 => ⟨S850000, .f32⟩
  | 27 => ⟨S_, .f32⟩
  | 28 => ⟨S50000, .f32⟩
  | 29 => ⟨S850000x1, .i32⟩
  | 30 => ⟨S50000, .f32⟩
  | 31 => ⟨S_, .f32⟩
  | 32 => ⟨S50000, .f32⟩
  | 33 => ⟨S50000, .i1⟩
  | 34 => ⟨S50000, .f32⟩
  | 35 => ⟨S_, .f32⟩
  | 36 => ⟨S_, .f32⟩
  | 37 => ⟨S50000, .f32⟩
  | 38 => ⟨S50000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000, .f32⟩
  | 57 => ⟨S850000, .f32⟩
  | 58 => ⟨S50000x256, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x256, .f32⟩
  | 68 => ⟨S850000x1, .f32⟩
  | 69 => ⟨S850000x256, .f32⟩
  | 70 => ⟨S850000x256, .f32⟩
  | 71 => ⟨S_, .f32⟩
  | 72 => ⟨S50000x256, .f32⟩
  | 73 => ⟨S850000x1, .i32⟩
  | 74 => ⟨S50000x256, .f32⟩
  | 75 => ⟨S1x256, .f32⟩
  | 76 => ⟨S50000x256, .f32⟩
  | 77 => ⟨S50000x256, .f32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192x256, .f32⟩
  | 87 => ⟨S_, .f32⟩
  | 88 => ⟨S8192x256, .f32⟩
  | 89 => ⟨S8192x256, .f32⟩
  | 90 => ⟨S8192x512, .f32⟩
  | 91 => ⟨S1x512, .f32⟩
  | 92 => ⟨S8192x512, .f32⟩
  | 93 => ⟨S8192x512, .f32⟩
  | 94 => ⟨S_, .f32⟩
  | 95 => ⟨S8192, .f32⟩
  | 96 => ⟨S8192x1, .f32⟩
  | 97 => ⟨S_, .f32⟩
  | 98 => ⟨S8192x1, .f32⟩
  | 99 => ⟨S8192x1, .f32⟩
  | 100 => ⟨S8192x512, .f32⟩
  | 101 => ⟨S8192x512, .f32⟩
  | 102 => ⟨S8192x512, .f32⟩
  | 103 => ⟨S_, .f32⟩
  | 104 => ⟨S8192, .f32⟩
  | 105 => ⟨S8192x1, .f32⟩
  | 106 => ⟨S_, .f32⟩
  | 107 => ⟨S8192x1, .f32⟩
  | 108 => ⟨S8192x1, .f32⟩
  | 109 => ⟨S8192x512, .f32⟩
  | 110 => ⟨S8192x512, .f32⟩
  | 111 => ⟨S_, .f32⟩
  | 112 => ⟨S8192x1, .f32⟩
  | 113 => ⟨S8192x1, .f32⟩
  | 114 => ⟨S8192x1, .f32⟩
  | 115 => ⟨S8192x512, .f32⟩
  | 116 => ⟨S8192x512, .f32⟩
  | 117 => ⟨S1x512, .f32⟩
  | 118 => ⟨S8192x512, .f32⟩
  | 119 => ⟨S8192x512, .f32⟩
  | 120 => ⟨S1x512, .f32⟩
  | 121 => ⟨S8192x512, .f32⟩
  | 122 => ⟨S8192x512, .f32⟩
  | 123 => ⟨S_, .f32⟩
  | 124 => ⟨S8192x512, .f32⟩
  | 125 => ⟨S8192x512, .f32⟩
  | 126 => ⟨S8192x256, .f32⟩
  | 127 => ⟨S1x256, .f32⟩
  | _ => ⟨S50000x128, .f32⟩

abbrev hbmTy0_1 (i : Nat) : BufTy := match i % 128 with
  | 0 => ⟨S8192x256, .f32⟩
  | 1 => ⟨S8192x256, .f32⟩
  | 2 => ⟨S_, .f32⟩
  | 3 => ⟨S8192, .f32⟩
  | 4 => ⟨S8192x1, .f32⟩
  | 5 => ⟨S_, .f32⟩
  | 6 => ⟨S8192x1, .f32⟩
  | 7 => ⟨S8192x1, .f32⟩
  | 8 => ⟨S8192x256, .f32⟩
  | 9 => ⟨S8192x256, .f32⟩
  | 10 => ⟨S8192x256, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S8192x256, .f32⟩
  | 18 => ⟨S8192x256, .f32⟩
  | 19 => ⟨S_, .f32⟩
  | 20 => ⟨S8192x1, .f32⟩
  | 21 => ⟨S8192x1, .f32⟩
  | 22 => ⟨S8192x1, .f32⟩
  | 23 => ⟨S8192x256, .f32⟩
  | 24 => ⟨S8192x256, .f32⟩
  | 25 => ⟨S1x256, .f32⟩
  | 26 => ⟨S8192x256, .f32⟩
  | 27 => ⟨S8192x256, .f32⟩
  | 28 => ⟨S1x256, .f32⟩
  | 29 => ⟨S8192x256, .f32⟩
  | 30 => ⟨S8192x256, .f32⟩
  | 31 => ⟨S8192x256, .f32⟩
  | 32 => ⟨S1x256, .f32⟩
  | 33 => ⟨S8192x256, .f32⟩
  | 34 => ⟨S8192x256, .f32⟩
  | 35 => ⟨S8192x256, .f32⟩
  | 36 => ⟨S_, .f32⟩
  | 37 => ⟨S8192x256, .f32⟩
  | 38 => ⟨S8192x256, .f32⟩
  | 39 => ⟨S8192x1, .f32⟩
  | 40 => ⟨S1x1, .f32⟩
  | 41 => ⟨S8192x1, .f32⟩
  | 42 => ⟨S8192x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v14 : Ref sig .tc := ⟨.hbm, 38, rfl⟩
abbrev main_c : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_c_5 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_6 : Ref sig .tc := ⟨.hbm, 59, rfl⟩
abbrev main_v31 : Ref sig .tc := ⟨.hbm, 60, rfl⟩
abbrev main_v32 : Ref sig .tc := ⟨.hbm, 61, rfl⟩
abbrev main_c_7 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_8 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_c_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_call1_cst : Ref sig .tc := ⟨.hbm, 87, rfl⟩
abbrev main_call1_v0 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_cst_12 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_13 : Ref sig .tc := ⟨.hbm, 103, rfl⟩
abbrev main_v66 : Ref sig .tc := ⟨.hbm, 104, rfl⟩
abbrev main_v67 : Ref sig .tc := ⟨.hbm, 105, rfl⟩
abbrev main_cst_14 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_15 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_call2_cst : Ref sig .tc := ⟨.hbm, 123, rfl⟩
abbrev main_call2_v0 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_16 : Ref sig .tc := ⟨.hbm, 130, rfl⟩
abbrev main_v88 : Ref sig .tc := ⟨.hbm, 131, rfl⟩
abbrev main_v89 : Ref sig .tc := ⟨.hbm, 132, rfl⟩
abbrev main_cst_17 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_18 : Ref sig .tc := ⟨.hbm, 139, rfl⟩
abbrev main_v95 : Ref sig .tc := ⟨.hbm, 140, rfl⟩
abbrev main_v96 : Ref sig .tc := ⟨.hbm, 141, rfl⟩
abbrev main_cst_19 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_20 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_call3_cst : Ref sig .tc := ⟨.hbm, 164, rfl⟩
abbrev main_call3_v0 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x256 : S_.BroadcastsInDim S8192x256 (![] : Fin 0 → Fin S8192x256.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x512_S8192_d1 : S8192x512.ReducesTo [1] S8192
  h_S_ : 0 < S_.numel
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192x512 : S_.BroadcastsInDim S8192x512 (![] : Fin 0 → Fin S8192x512.rank)
  bcast_S1x256_S8192x256_0_1 : S1x256.BroadcastsInDim S8192x256 (![0, 1] : Fin 2 → Fin S8192x256.rank)
  reducesTo_S8192x256_S8192_d1 : S8192x256.ReducesTo [1] S8192
  bcast_S8192x1_S8192x256_0_1 : S8192x1.BroadcastsInDim S8192x256 (![0, 1] : Fin 2 → Fin S8192x256.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  gather_S50000x256_S8192x1_S8192x256_1_0_n_n_0_1_1256_wf : GatherDims.WF S50000x256 S8192x1 S8192x256 [1] [0] [] [0] [] 1 ![1, 256]
  dot_S8192x256_S256x512_S8192x512_1_0_0_1_n_n_wf : DotDims.WF S8192x256 S256x512 S8192x512 [1] [0] [0] [1] [] []
  dot_S8192x512_S512x256_S8192x256_1_0_0_1_n_n_wf : DotDims.WF S8192x512 S512x256 S8192x256 [1] [0] [0] [1] [] []
  dot_S8192x64_S64x256_S8192x256_1_0_0_1_n_n_wf : DotDims.WF S8192x64 S64x256 S8192x256 [1] [0] [0] [1] [] []
  dot_S8192x256_S256x1_S8192x1_1_0_0_1_n_n_wf : DotDims.WF S8192x256 S256x1 S8192x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def gather_S50000x256_S8192x1_S8192x256_1_0_n_n_0_1_1256 : GatherDims S50000x256 S8192x1 S8192x256 where
  offsetDims := [1]
  collapsedSliceDims := [0]
  operandBatchingDims := []
  startIndicesBatchingDims := []
  startIndexMap := [0]
  indexVectorDim := 1
  sliceSizes := ![1, 256]
  wf := gather_S50000x256_S8192x1_S8192x256_1_0_n_n_0_1_1256_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x64_S64x256_S8192x256_1_0_0_1_n_n : DotDims S8192x64 S64x256 S8192x256 where
  lhsContracting := [1]
  rhsContracting := [0]
  lhsNonContracting := [0]
  rhsNonContracting := [1]
  lhsBatch := []
  rhsBatch := []
  wf := dot_S8192x64_S64x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf

class Facts : Prop extends Facts₀ where

variable [Facts]
-- ==== Proof.Spec.lean ====
/-
  The value both programs compute for one agent row, as one function over the extended reals.

  An agent's hidden row `h` (256 wide, before its activation) goes through
    relu → (· W1 + b1) → layer norm (g1, be1) → relu → (· W2 + b2) → layer norm (g2, be2),
  the agent's action row through (· Wa + ba), the two are added, passed through relu, and the head takes the
  inner product with `wq` and adds `bq`. A layer norm of a row `x` of width C is
    (x - μ) · rsqrt(σ² + ε) · g + be,   μ = (Σ x) / n,   σ² = (Σ (x - μ)²) / n,
  where `n` is the f32 word of the width C and ε the f32 word both programs carry; the quotient and `rsqrt` are the
  extended reals' (`Ideal.div`, `Ideal.rsqrt`).
-/
import Idealize.ShloMosaic.PureOps.Ideal
import Idealize.ShloMosaic.PureOps.Ideal.Laws

noncomputable section

namespace Cert.Spec

open Idealize.ShloMosaic

/-- The f32 word of 512.0, the width of the first normalised row. -/
abbrev w512 : EReal := Ideal.ofBits .f32 0x44000000#32
/-- The f32 word of 256.0, the width of the second normalised row. -/
abbrev w256 : EReal := Ideal.ofBits .f32 0x43800000#32
/-- The f32 word nearest 1e-5, the variance's offset under the reciprocal square root. -/
abbrev wEps : EReal := Ideal.ofBits .f32 0x3727C5AC#32

/-- A row times a matrix, plus a bias row: entry `c` is `Σ k, x k · W k c + b c`. -/
def affine {K C : ℕ} (x : Fin K → EReal) (W : Fin K → Fin C → EReal) (b : Fin C → EReal) : Fin C → EReal :=
  fun c => (∑ k : Fin K, x k * W k c) + b c

/-- The positive part of a row, entry by entry. -/
def relu {C : ℕ} (x : Fin C → EReal) : Fin C → EReal := fun c => max (x c) 0

/-- The mean of a row by the quotient with the width's f32 word `n`. -/
def mean {C : ℕ} (n : EReal) (x : Fin C → EReal) : EReal := Ideal.div (∑ c : Fin C, x c) n

/-- The centred row `x - μ`. -/
def centred {C : ℕ} (n : EReal) (x : Fin C → EReal) : Fin C → EReal := fun c => x c - mean n x

/-- The variance of a row: the mean of the centred row's squares. -/
def variance {C : ℕ} (n : EReal) (x : Fin C → EReal) : EReal := mean n fun c => centred n x c * centred n x c

/-- Layer normalisation of a row with gain `g` and offset `be`. -/
def lnorm {C : ℕ} (n : EReal) (x g be : Fin C → EReal) : Fin C → EReal :=
  fun c => centred n x c * Ideal.rsqrt (variance n x + wEps) * g c + be c

/-- The whole agent-side chain for one row: from the hidden row `h` (before its activation) and the action row
    `act` to the scalar the head returns. -/
def mlpRow (h : Fin 256 → EReal) (act : Fin 64 → EReal)
    (W1 : Fin 256 → Fin 512 → EReal) (b1 g1 be1 : Fin 512 → EReal)
    (W2 : Fin 512 → Fin 256 → EReal) (b2 g2 be2 : Fin 256 → EReal)
    (Wa : Fin 64 → Fin 256 → EReal) (ba : Fin 256 → EReal) (wq : Fin 256 → EReal) (bq : EReal) : EReal :=
  (∑ c : Fin 256,
      relu (fun c' => lnorm w256 (affine (relu (lnorm w512 (affine (relu h) W1 b1) g1 be1)) W2 b2) g2 be2 c'
                      + affine act Wa ba c') c * wq c) + bq

end Cert.Spec

end
-- ==== Proof.LibRows.lean ====
/-
  Row gathers and accumulating row scatters read at an index.

  A table of N rows of width C is read, or accumulated into, at rows named by a column of n start indices
  (an [n × 1] array of words). Reading: result row p is the table's row at start index p, read signed and clamped
  into [0, N − 1]. Accumulating: update row e lands on the operand row its start index names, read signed and NOT
  clamped, and is dropped when that is no row of the operand; entry (r, c) of the result is the operand's entry plus the
  sum of the entries (e, c) of the update rows e that land on r.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.LibRows

open Idealize.ShloMosaic Idealize.ShloMosaic.ValueIdx Idealize.ShloMosaic.StableHlo.Predicate

/-- The table row a start index names when it is READ: the word read signed, clamped into [0, N − 1]. -/
def rowOf {N n w : ℕ} (hN : 0 < N) (idx : IVec ⟨2, ![n, 1]⟩ w) (p : Fin n) : Fin N :=
  ⟨min (idx (ixP p)).toInt.toNat (N - 1), by omega⟩

/-- A row gather read at (p, q): the table at (row of start index p, q). The five hypotheses are the printed
    dimension numbers, each closed by `rfl` at a use. -/
theorem gather_rows {α : Type} {N C n w : ℕ} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (hN : 0 < N) (p : Fin n) (q : Fin C) :
    Host.gather d x idx (ix2 p q) = x (ix2 (rowOf hN idx p) q) := by
  unfold Host.gather
  congr 1
  funext a
  apply Fin.ext
  have hnb : ∀ a : Fin 2, a ∉ d.operandBatchingDims := fun a => by rw [hob]; exact List.not_mem_nil
  -- the result's batch axes are axis 0 alone, its offset axes axis 1 alone
  have hbd : ∀ X ∈ d.batchDims, X = (0 : Fin 2) := by
    intro X hX
    have : d.batchDims = [(0 : Fin 2)] := by unfold GatherDims.batchDims; rw [hoff]; rfl
    rw [this] at hX; exact List.mem_singleton.mp hX
  have hod : ∀ X ∈ d.offsetDims, X = (1 : Fin 2) := by
    intro X hX; rw [hoff] at hX; exact List.mem_singleton.mp hX
  have e0 : ∀ X : Fin 2, X = 0 → ((ix2 p q : (⟨2, ![n, C]⟩ : Shape).Idx) X).val = p.val := by rintro _ rfl; rfl
  have e1 : ∀ X : Fin 2, X = 1 → ((ix2 p q : (⟨2, ![n, C]⟩ : Shape).Idx) X).val = q.val := by rintro _ rfl; rfl
  match a with
  | ⟨0, _⟩ =>
    -- axis 0 is collapsed and start-indexed: its slice has size 1, so the start is clamped into [0, N − 1]
    have hsl : d.sliceSizes 0 = 1 := d.slice_collapsed 0 (by rw [hcoll]; exact List.mem_singleton.mpr rfl)
    have hk : (0 : Fin 2) ∉ d.sKept := by rw [GatherDims.mem_sKept, hcoll]; simp
    have hm : (0 : Fin 2) ∈ d.startIndexMap := by rw [hsim]; exact List.mem_singleton.mpr rfl
    show d.start (ix2 p q) idx 0 + d.batchCoord (ix2 p q) 0 + d.offCoord (ix2 p q) 0 = min (idx (ixP p)).toInt.toNat (N - 1)
    rw [GatherDims.batchCoord_eq_zero _ _ _ (hnb 0), GatherDims.offCoord_eq_zero _ _ _ hk]
    unfold GatherDims.start
    rw [dif_pos hm]
    show min _ (N - d.sliceSizes 0) = _
    rw [hsl]
    congr 3
    congr 1
    funext b
    apply Fin.ext
    match b with
    | ⟨0, _⟩ =>
      unfold GatherDims.siIdx
      rw [dif_neg (by rw [hivd]; exact Nat.zero_ne_one)]
      unfold GatherDims.siCoord
      simp only [Fin.val_cast]
      exact e0 _ (hbd _ (List.getElem_mem _))
    | ⟨1, _⟩ =>
      unfold GatherDims.siIdx
      rw [dif_pos (by rw [hivd])]
      show List.idxOf (0 : Fin 2) d.startIndexMap = 0
      rw [hsim]; simp
  | ⟨1, _⟩ =>
    -- axis 1 is the one offset axis: no start, and the offset coordinate is the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hnb 1)]
    unfold GatherDims.start GatherDims.offCoord
    rw [dif_neg hm, dif_pos hk]
    simp only [Nat.zero_add, Nat.add_zero]
    exact e1 _ (hod _ (List.getElem_mem _))

/-- Where update entry (e, c) of an accumulating row scatter lands: on (r, c') exactly when start index e, read signed,
    is r and the columns agree. -/
theorem scatter_rows_resultIdx {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (idx : IVec ⟨2, ![n, 1]⟩ w) (e : Fin n) (c : Fin C) (r : Fin N) (c' : Fin C) :
    d.resultIdx? (ix2 e c) idx = some (ix2 r c') ↔ (idx (ixP e)).toInt = (r.val : ℤ) ∧ c = c' := by
  -- the update's scatter axes are axis 0 alone, its window axes axis 1 alone
  have hus : ∀ X ∈ d.uScatter, X = (0 : Fin 2) := by
    intro X hX
    have : d.uScatter = [(0 : Fin 2)] := by unfold ScatterDims.uScatter; rw [huw]; rfl
    rw [this] at hX; exact List.mem_singleton.mp hX
  have huwd : ∀ X ∈ d.updateWindowDims, X = (1 : Fin 2) := by
    intro X hX; rw [huw] at hX; exact List.mem_singleton.mp hX
  have e0 : ∀ X : Fin 2, X = 0 → ((ix2 e c : (⟨2, ![n, C]⟩ : Shape).Idx) X).val = e.val := by rintro _ rfl; rfl
  have e1 : ∀ X : Fin 2, X = 1 → ((ix2 e c : (⟨2, ![n, C]⟩ : Shape).Idx) X).val = c.val := by rintro _ rfl; rfl
  have hmem_sKept : ∀ a : Fin 2, a ∈ d.sKept ↔ a ∉ d.insertedWindowDims := fun a => by
    simp [ScatterDims.sKept, Shape.kept, List.mem_filter, List.mem_finRange]
  -- the start of the window: the index word, read signed, on axis 0; nothing on axis 1
  have hs0 : d.start (ix2 e c) idx 0 = (idx (ixP e)).toInt := by
    have hm : (0 : Fin 2) ∈ d.scatterDimsToOperandDims := by rw [hsd]; exact List.mem_singleton.mpr rfl
    unfold ScatterDims.start
    rw [dif_pos hm]
    congr 2
    funext b
    apply Fin.ext
    match b with
    | ⟨0, _⟩ =>
      unfold ScatterDims.siIdx
      rw [dif_neg (by rw [hivd]; exact Nat.zero_ne_one)]
      unfold ScatterDims.siCoord
      simp only [Fin.val_cast]
      exact e0 _ (hus _ (List.getElem_mem _))
    | ⟨1, _⟩ =>
      unfold ScatterDims.siIdx
      rw [dif_pos (by rw [hivd])]
      show List.idxOf (0 : Fin 2) d.scatterDimsToOperandDims = 0
      rw [hsd]; simp
  have hs1 : d.start (ix2 e c) idx 1 = 0 := by
    have hm : (1 : Fin 2) ∉ d.scatterDimsToOperandDims := by rw [hsd]; simp
    unfold ScatterDims.start
    rw [dif_neg hm]
  -- the window coordinate: nothing on the inserted axis 0; the update's column on axis 1
  have hw0 : d.window (ix2 e c) 0 = 0 := by
    have hk : (0 : Fin 2) ∉ d.sKept := by rw [hmem_sKept, hiw]; simp
    unfold ScatterDims.window
    rw [dif_neg hk]
  have hw1 : d.window (ix2 e c) 1 = c.val := by
    have hk : (1 : Fin 2) ∈ d.sKept := by rw [hmem_sKept, hiw]; simp
    unfold ScatterDims.window
    rw [dif_pos hk]
    exact e1 _ (huwd _ (List.getElem_mem _))
  have hr := r.isLt
  have hc := c.isLt
  have hc' := c'.isLt
  unfold ScatterDims.resultIdx?
  constructor
  · intro h
    split at h
    · next hin =>
      have hf := Option.some.inj h
      have h0 := congrArg (fun f => (f 0).val) hf
      have h1 := congrArg (fun f => (f 1).val) hf
      simp only [hs0, hw0, hs1, hw1] at h0 h1
      have hin0 := (hin 0).1
      rw [hs0, hw0] at hin0
      change ((idx (ixP e)).toInt + ((0 : ℕ) : ℤ)).toNat = r.val at h0
      change ((0 : ℤ) + (c.val : ℤ)).toNat = c'.val at h1
      refine ⟨by omega, Fin.ext (by omega)⟩
    · exact absurd h (by simp)
  · rintro ⟨hi, rfl⟩
    have hin : ∀ a, 0 ≤ d.start (ix2 e c) idx a + d.window (ix2 e c) a ∧
        d.start (ix2 e c) idx a + (d.window (ix2 e c) a : ℤ) < ((⟨2, ![N, C]⟩ : Shape).size a : ℤ) := by
      intro a
      match a with
      | ⟨0, _⟩ =>
        show 0 ≤ d.start (ix2 e c) idx 0 + (d.window (ix2 e c) 0 : ℤ) ∧ d.start (ix2 e c) idx 0 + (d.window (ix2 e c) 0 : ℤ) < (N : ℤ)
        rw [hs0, hw0, hi]; omega
      | ⟨1, _⟩ =>
        show 0 ≤ d.start (ix2 e c) idx 1 + (d.window (ix2 e c) 1 : ℤ) ∧ d.start (ix2 e c) idx 1 + (d.window (ix2 e c) 1 : ℤ) < (C : ℤ)
        rw [hs1, hw1]; omega
    rw [dif_pos hin]
    congr 1
    funext a
    apply Fin.ext
    match a with
    | ⟨0, _⟩ =>
      show (d.start (ix2 e c) idx 0 + (d.window (ix2 e c) 0 : ℤ)).toNat = r.val
      rw [hs0, hw0, hi]; omega
    | ⟨1, _⟩ =>
      show (d.start (ix2 e c) idx 1 + (d.window (ix2 e c) 1 : ℤ)).toNat = c.val
      rw [hs1, hw1]; omega

/-- The accumulating row scatter at the extended reals, read at (r, c): the operand's entry plus the sum over the update
    rows that land on r of their entry in column c. -/
theorem scatterAdd_rows {φ : FTy} {N C n w : ℕ} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1) (x : FVec Ideal ⟨2, ![N, C]⟩ φ) (idx : IVec ⟨2, ![n, 1]⟩ w)
    (upd : FVec Ideal ⟨2, ![n, C]⟩ φ) (r : Fin N) (c : Fin C) :
    Host.scatterAdd d x idx upd (ix2 r c)
      = x (ix2 r c) + ∑ e ∈ Finset.univ.filter (fun e : Fin n => (idx (ixP e)).toInt = (r.val : ℤ)), upd (ix2 e c) := by
  show x (ix2 r c) + ∑ j ∈ Finset.univ.filter (fun j => d.resultIdx? j idx = some (ix2 r c)), upd j = _
  congr 1
  rw [Finset.sum_filter, sum_idx2, Finset.sum_filter]
  refine Finset.sum_congr rfl fun a _ => ?_
  simp only [scatter_rows_resultIdx d huw hiw hsd hivd]
  by_cases ha : (idx (ixP a)).toInt = (r.val : ℤ)
  · simp only [ha, true_and, if_true]
    rw [Finset.sum_ite_eq']
    simp
  · simp only [ha, false_and, if_false]
    exact Finset.sum_const_zero

/-- An accumulating scatter of real entries into real entries has real entries, whatever its dimension numbers and
    indices: each entry is the operand's plus a finite sum of updates. -/
theorem scatterAdd_real {φ : FTy} {s si su : Shape} {w : ℕ} (d : ScatterDims s si su) (x : FVec Ideal s φ) (idx : IVec si w)
    (upd : FVec Ideal su φ) (hx : ∀ i, ∃ r : ℝ, x i = (r : EReal)) (hu : ∀ j, ∃ r : ℝ, upd j = (r : EReal)) (i : s.Idx) :
    ∃ r : ℝ, Host.scatterAdd d x idx upd i = (r : EReal) := by
  -- a finite sum of real updates is real
  have hsum : ∀ S : Finset su.Idx, ∃ b : ℝ, ∑ j ∈ S, upd j = (b : EReal) := by
    classical
    intro S
    induction S using Finset.induction_on with
    | empty => exact ⟨0, by rw [Finset.sum_empty, EReal.coe_zero]⟩
    | insert j S hj ih =>
      obtain ⟨b, hb⟩ := ih
      obtain ⟨u, hu'⟩ := hu j
      exact ⟨u + b, by rw [Finset.sum_insert hj, hb, hu', EReal.coe_add]⟩
  obtain ⟨a, ha⟩ := hx i
  obtain ⟨b, hb⟩ := hsum (Finset.univ.filter (fun j => d.resultIdx? j idx = some i))
  refine ⟨a + b, ?_⟩
  show x i + ∑ j ∈ Finset.univ.filter (fun j => d.resultIdx? j idx = some i), upd j = _
  rw [ha, hb, EReal.coe_add]

end Cert.LibRows

end
-- ==== Proof.LibLinear.lean ====
/-
  Finite sums of real numbers inside the extended reals, and the exchange of a weighted row sum with a matrix product.

  For rows x e (e in a finite set S) with real entries, real weights c e and a real column W:
    Σ k, (Σ e ∈ S, x e k · c e) · W k  =  Σ e ∈ S, (Σ k, x e k · W k) · c e.
  Both sides are the real number Σ e ∈ S, Σ k, x e k · c e · W k; on the extended reals the law needs every factor
  finite, because a product does not distribute over a sum that mixes infinities.
-/
import Idealize.ShloMosaic.PureOps.Ideal

noncomputable section

namespace Cert.LibLinear

/-- The extended real of a finite sum of reals is the sum of the extended reals. -/
theorem coe_sum {ι : Type} (S : Finset ι) (f : ι → ℝ) : ((∑ i ∈ S, f i : ℝ) : EReal) = ∑ i ∈ S, (f i : EReal) := by
  classical
  refine Finset.induction_on S ?_ ?_
  · simp
  · intro a s ha ih
    rw [Finset.sum_insert ha, Finset.sum_insert ha, EReal.coe_add, ih]

/-- A finite sum of extended reals that are all real is real. -/
theorem sum_real {ι : Type} (S : Finset ι) (f : ι → EReal) (hf : ∀ i ∈ S, ∃ r : ℝ, f i = (r : EReal)) :
    ∃ r : ℝ, ∑ i ∈ S, f i = (r : EReal) := by
  refine ⟨∑ i ∈ S, (f i).toReal, ?_⟩
  rw [coe_sum]
  refine Finset.sum_congr rfl (fun i hi => ?_)
  obtain ⟨r, hr⟩ := hf i hi
  rw [hr, EReal.toReal_coe]

/-- The exchange law. -/
theorem exchange {E K : Type} [Fintype K] (S : Finset E) (x : E → K → EReal) (cw : E → EReal) (W : K → EReal)
    (hx : ∀ e k, ∃ r : ℝ, x e k = (r : EReal)) (hc : ∀ e, ∃ r : ℝ, cw e = (r : EReal)) (hW : ∀ k, ∃ r : ℝ, W k = (r : EReal)) :
    ∑ k : K, (∑ e ∈ S, x e k * cw e) * W k = ∑ e ∈ S, (∑ k : K, x e k * W k) * cw e := by
  -- real witnesses for every entry
  choose xr hxr using hx
  choose cr hcr using hc
  choose Wr hWr using hW
  -- the left side is the extended real of a real double sum
  have hL : ∑ k : K, (∑ e ∈ S, x e k * cw e) * W k
      = ((∑ k : K, (∑ e ∈ S, xr e k * cr e) * Wr k : ℝ) : EReal) := by
    rw [coe_sum]
    refine Finset.sum_congr rfl (fun k _ => ?_)
    rw [EReal.coe_mul, coe_sum, hWr]
    congr 1
    refine Finset.sum_congr rfl (fun e _ => ?_)
    rw [EReal.coe_mul, hxr, hcr]
  -- so is the right side
  have hR : ∑ e ∈ S, (∑ k : K, x e k * W k) * cw e
      = ((∑ e ∈ S, (∑ k : K, xr e k * Wr k) * cr e : ℝ) : EReal) := by
    rw [coe_sum]
    refine Finset.sum_congr rfl (fun e _ => ?_)
    rw [EReal.coe_mul, coe_sum, hcr]
    congr 1
    refine Finset.sum_congr rfl (fun k _ => ?_)
    rw [EReal.coe_mul, hxr, hWr]
  rw [hL, hR]
  congr 1
  -- over the reals: distribute, swap the two sums, and compare term by term
  simp only [Finset.sum_mul]
  rw [Finset.sum_comm]
  refine Finset.sum_congr rfl (fun e _ => Finset.sum_congr rfl (fun k _ => ?_))
  ring

end Cert.LibLinear

end
-- ==== Proof.PreFacts.lean ====
/-
  What the precondition says of the inputs the proof leans on: the node features and the projection matrix are real
  entry by entry (each absolute value is below +∞), and every agent index lies in [−50000, 50000).
-/
import proofs.«414226_j9929964389147_2_alg».proof.Pre_finite_inputs
import proofs.«414226_j9929964389147_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

namespace Cert.PreFacts

open Cert.Pre_finite_inputs Idealize.ShloMosaic Idealize.ShloMosaic.ValueIdx

/-- The index type of a rank-0 shape has one element. -/
private theorem subsingleton_S_ : Subsingleton S_.Idx := ⟨fun a b => funext fun d => d.elim0⟩

/-- An elementwise `and` of two `i1` arrays that reads 1 at an index has both operands 1 there. -/
private theorem andi_at {s : Shape} {x y : IVec s 1} {j : s.Idx} (h : andi x y j = 1#1) : x j = 1#1 ∧ y j = 1#1 :=
  IntOp.andi_eq_one.1 h

/-- The pattern 0x7F800000 denotes +∞. -/
private theorem inf_bits : Ideal.ofBits .f32 0x7F800000#32 = (⊤ : EReal) := by
  simp [Ideal.ofBits, Ideal.ieee]

/-- An extended real whose absolute value is strictly below +∞ is a real. -/
private theorem real_of_abs_lt_inf (x : Ideal .f32)
    (h : FloatOps.cmpf .olt (FloatOps.hostAbsf x) (FloatOps.ofBits (F := Ideal) .f32 0x7F800000#32) = 1#1) :
    ∃ r : ℝ, x = (r : EReal) := by
  rw [Ideal.cmpf_def, Ideal.hostAbsf_def, Ideal.absf_def, Ideal.ofBits_def, inf_bits] at h
  simp only [Ideal.cmp, StableHlo.Predicate.ofBool_eq_one_iff, decide_eq_true_eq] at h
  induction x using EReal.rec with
  | bot => simp at h
  | coe r => exact ⟨r, rfl⟩
  | top => simp at h

/-- The 32-bit word 4294917296 is −50000 as a signed integer. -/
private theorem toInt_lo : (4294917296#32 : BitVec 32).toInt = -50000 := by decide

/-- The 32-bit word 50000 is 50000 as a signed integer. -/
private theorem toInt_hi : (50000#32 : BitVec 32).toInt = 50000 := by decide

/-- Part 5: the running conjunction and every bit of the last compare are 1. -/
private theorem part5 [Cert.Pre_finite_inputs.Facts] (v82 : IVec S_ 1) (v84 : IVec S8192 1) (j : S_.Idx)
    (h : fn_part5 (F := Ideal) v82 v84 j = 1#1) : v82 j = 1#1 ∧ ∀ i, v84 i = 1#1 := by
  haveI := subsingleton_S_
  dsimp only [fn_part5] at h
  obtain ⟨h1, h2⟩ := andi_at h
  exact ⟨h1, fun i => Host.reduce_andi_all _ _ _ _ j h2 i⟩

/-- Part 4: the running conjunction at its head is 1, and the two signed compares bound every index word. -/
private theorem part4 [Cert.Pre_finite_inputs.Facts] (a3 : IVec S8192 32) (a16 : FVec Ideal S256x1 .f32)
    (a17 : FVec Ideal S1 .f32) (v63 v67 : IVec S_ 1) (j : S_.Idx)
    (h : fn_part4 (F := Ideal) a3 a16 a17 v63 v67 j = 1#1) :
    v63 j = 1#1 ∧ ∀ i, (-50000 : ℤ) ≤ (a3 i).toInt ∧ (a3 i).toInt < 50000 := by
  haveI := subsingleton_S_
  dsimp only [fn_part4] at h
  obtain ⟨h82, h84⟩ := part5 _ _ j h
  obtain ⟨h78, h81⟩ := andi_at h82
  obtain ⟨h73, -⟩ := andi_at h78
  obtain ⟨h68, -⟩ := andi_at h73
  obtain ⟨h63, -⟩ := andi_at h68
  refine ⟨h63, fun i => ⟨?_, ?_⟩⟩
  · have e : IntOp.cmpi .sge (a3 i) (4294917296#32) = 1#1 := Host.reduce_andi_all _ _ _ _ j h81 i
    rw [IntOp.cmpi_sge, toInt_lo] at e
    exact e
  · have e : IntOp.cmpi .slt (a3 i) (50000#32) = 1#1 := h84 i
    rw [IntOp.cmpi_slt, toInt_hi] at e
    exact e

/-- Part 3 hands the running conjunction and the index bounds through. -/
private theorem part3 [Cert.Pre_finite_inputs.Facts] (a3 : IVec S8192 32) (a13 : FVec Ideal S256 .f32)
    (a14 : FVec Ideal S64x256 .f32) (a15 : FVec Ideal S256 .f32) (a16 : FVec Ideal S256x1 .f32) (a17 : FVec Ideal S1 .f32)
    (v48 : IVec S_ 1) (v49 v50 : FVec Ideal S256 .f32) (j : S_.Idx)
    (h : fn_part3 (F := Ideal) a3 a13 a14 a15 a16 a17 v48 v49 v50 j = 1#1) :
    v48 j = 1#1 ∧ ∀ i, (-50000 : ℤ) ≤ (a3 i).toInt ∧ (a3 i).toInt < 50000 := by
  dsimp only [fn_part3] at h
  obtain ⟨h63, hb⟩ := part4 _ _ _ _ _ j h
  obtain ⟨h58, -⟩ := andi_at h63
  obtain ⟨h53, -⟩ := andi_at h58
  obtain ⟨h48, -⟩ := andi_at h53
  exact ⟨h48, hb⟩

/-- Part 2 hands the running conjunction and the index bounds through. -/
private theorem part2 [Cert.Pre_finite_inputs.Facts] (a3 : IVec S8192 32) (a9 : FVec Ideal S512 .f32)
    (a10 : FVec Ideal S512x256 .f32) (a11 a12 a13 : FVec Ideal S256 .f32) (a14 : FVec Ideal S64x256 .f32)
    (a15 : FVec Ideal S256 .f32) (a16 : FVec Ideal S256x1 .f32) (a17 : FVec Ideal S1 .f32) (v33 : IVec S_ 1) (j : S_.Idx)
    (h : fn_part2 (F := Ideal) a3 a9 a10 a11 a12 a13 a14 a15 a16 a17 v33 j = 1#1) :
    v33 j = 1#1 ∧ ∀ i, (-50000 : ℤ) ≤ (a3 i).toInt ∧ (a3 i).toInt < 50000 := by
  dsimp only [fn_part2] at h
  obtain ⟨h48, hb⟩ := part3 _ _ _ _ _ _ _ _ _ j h
  obtain ⟨h43, -⟩ := andi_at h48
  obtain ⟨h38, -⟩ := andi_at h43
  obtain ⟨h33, -⟩ := andi_at h38
  exact ⟨h33, hb⟩

/-- Part 1 hands the running conjunction and the index bounds through. -/
private theorem part1 [Cert.Pre_finite_inputs.Facts] (a3 : IVec S8192 32) (a6 : FVec Ideal S256x512 .f32)
    (a7 a8 a9 : FVec Ideal S512 .f32) (a10 : FVec Ideal S512x256 .f32) (a11 a12 a13 : FVec Ideal S256 .f32)
    (a14 : FVec Ideal S64x256 .f32) (a15 : FVec Ideal S256 .f32) (a16 : FVec Ideal S256x1 .f32) (a17 : FVec Ideal S1 .f32)
    (v13 : IVec S_ 1) (v16 : IVec S256 1) (j : S_.Idx)
    (h : fn_part1 (F := Ideal) a3 a6 a7 a8 a9 a10 a11 a12 a13 a14 a15 a16 a17 v13 v16 j = 1#1) :
    v13 j = 1#1 ∧ ∀ i, (-50000 : ℤ) ≤ (a3 i).toInt ∧ (a3 i).toInt < 50000 := by
  dsimp only [fn_part1] at h
  obtain ⟨h33, hb⟩ := part2 _ _ _ _ _ _ _ _ _ _ _ j h
  obtain ⟨h28, -⟩ := andi_at h33
  obtain ⟨h23, -⟩ := andi_at h28
  obtain ⟨h18, -⟩ := andi_at h23
  obtain ⟨h13, -⟩ := andi_at h18
  exact ⟨h13, hb⟩

/-- The three facts read off the precondition. -/
theorem of_pre [Cert.Pre_finite_inputs.Facts]
    (a0 : FVec Ideal S50000x128 .f32) (a1 : IVec S2x800000 32) (a2 : FVec Ideal S8192x64 .f32) (a3 : IVec S8192 32)
    (a4 : FVec Ideal S128x256 .f32) (a5 : FVec Ideal S256 .f32) (a6 : FVec Ideal S256x512 .f32)
    (a7 a8 a9 : FVec Ideal S512 .f32) (a10 : FVec Ideal S512x256 .f32) (a11 a12 a13 : FVec Ideal S256 .f32)
    (a14 : FVec Ideal S64x256 .f32) (a15 : FVec Ideal S256 .f32) (a16 : FVec Ideal S256x1 .f32) (a17 : FVec Ideal S1 .f32)
    (h : fn (F := Ideal) a0 a1 a2 a3 a4 a5 a6 a7 a8 a9 a10 a11 a12 a13 a14 a15 a16 a17 = fun _ => 1#1) :
    (∀ i, ∃ r : ℝ, a0 i = (r : EReal)) ∧ (∀ i, ∃ r : ℝ, a4 i = (r : EReal))
      ∧ (∀ i, (-50000 : ℤ) ≤ (a3 i).toInt ∧ (a3 i).toInt < 50000) := by
  haveI := subsingleton_S_
  have h0 := congrFun h ValueIdx.ix0
  dsimp only [fn] at h0
  obtain ⟨h13, hb⟩ := part1 _ _ _ _ _ _ _ _ _ _ _ _ _ _ _ ValueIdx.ix0 h0
  obtain ⟨h8, h12⟩ := andi_at h13
  obtain ⟨h3, -⟩ := andi_at h8
  exact ⟨fun i => real_of_abs_lt_inf _ (Host.reduce_andi_all _ _ _ _ ValueIdx.ix0 h3 i),
    fun i => real_of_abs_lt_inf _ (Host.reduce_andi_all _ _ _ _ ValueIdx.ix0 h12 i), hb⟩

end Cert.PreFacts

end
-- ==== Proof.KerNames.lean ====
/-
  The kernel program's argument arrays as launched, and the arrays its windows stage as the host operations before the
  launch leave them, each named at its literal shape (so that arithmetic on their entries is the extended reals').
-/
import proofs.«414226_j9929964389147_2_alg».proof.Proof.Gen.KernelIdeal.Frame
import Idealize.ShloMosaic.PureOps.Ideal

noncomputable section

namespace Cert.KerNames

open Cert.KernelIdeal Cert.KernelIdeal.Gen Idealize.ShloMosaic Idealize.ShloMosaic.TcCoe Idealize.SL.Sem

variable (m : (ℓ : Loc nD τ sig) → Buf (Elt Ideal) ℓ) (c : Dev nD)

/-- Argument 0 as launched. -/
abbrev arg0 : (⟨S50000x128, .f32⟩ : BufTy).Contents (Elt Ideal) := m ((c.tc : Thread nD τ).loc main_arg0)
/-- Argument 1 as launched. -/
abbrev arg1 : (⟨S2x800000, .i32⟩ : BufTy).Contents (Elt Ideal) := m ((c.tc : Thread nD τ).loc main_arg1)
/-- Argument 2 as launched. -/
abbrev arg2 : (⟨S8192x64, .f32⟩ : BufTy).Contents (Elt Ideal) := m ((c.tc : Thread nD τ).loc main_arg2)
/-- Argument 3 as launched. -/
abbrev arg3 : (⟨S8192, .i32⟩ : BufTy).Contents (Elt Ideal) := m ((c.tc : Thread nD τ).loc main_arg3)
/-- Argument 4 as launched. -/
abbrev arg4 : (⟨S128x256, .f32⟩ : BufTy).Contents (Elt Ideal) := m ((c.tc : Thread nD τ).loc main_arg4)
/-- Argument 5 as launched. -/
abbrev arg5 : (⟨S256, .f32⟩ : BufTy).Contents (Elt Ideal) := m ((c.tc : Thread nD τ).loc main_arg5)
/-- Argument 6 as launched. -/
abbrev arg6 : (⟨S256x512, .f32⟩ : BufTy).Contents (Elt Ideal) := m ((c.tc : Thread nD τ).loc main_arg6)
/-- Argument 7 as launched. -/
abbrev arg7 : (⟨S512, .f32⟩ : BufTy).Contents (Elt Ideal) := m ((c.tc : Thread nD τ).loc main_arg7)
/-- Argument 8 as launched. -/
abbrev arg8 : (⟨S512, .f32⟩ : BufTy).Contents (Elt Ideal) := m ((c.tc : Thread nD τ).loc main_arg8)
/-- Argument 9 as launched. -/
abbrev arg9 : (⟨S512, .f32⟩ : BufTy).Contents (Elt Ideal) := m ((c.tc : Thread nD τ).loc main_arg9)
/-- Argument 10 as launched. -/
abbrev arg10 : (⟨S512x256, .f32⟩ : BufTy).Contents (Elt Ideal) := m ((c.tc : Thread nD τ).loc main_arg10)
/-- Argument 11 as launched. -/
abbrev arg11 : (⟨S256, .f32⟩ : BufTy).Contents (Elt Ideal) := m ((c.tc : Thread nD τ).loc main_arg11)
/-- Argument 12 as launched. -/
abbrev arg12 : (⟨S256, .f32⟩ : BufTy).Contents (Elt Ideal) := m ((c.tc : Thread nD τ).loc main_arg12)
/-- Argument 13 as launched. -/
abbrev arg13 : (⟨S256, .f32⟩ : BufTy).Contents (Elt Ideal) := m ((c.tc : Thread nD τ).loc main_arg13)
/-- Argument 14 as launched. -/
abbrev arg14 : (⟨S64x256, .f32⟩ : BufTy).Contents (Elt Ideal) := m ((c.tc : Thread nD τ).loc main_arg14)
/-- Argument 15 as launched. -/
abbrev arg15 : (⟨S256, .f32⟩ : BufTy).Contents (Elt Ideal) := m ((c.tc : Thread nD τ).loc main_arg15)
/-- Argument 16 as launched. -/
abbrev arg16 : (⟨S256x1, .f32⟩ : BufTy).Contents (Elt Ideal) := m ((c.tc : Thread nD τ).loc main_arg16)
/-- Argument 17 as launched. -/
abbrev arg17 : (⟨S1, .f32⟩ : BufTy).Contents (Elt Ideal) := m ((c.tc : Thread nD τ).loc main_arg17)

/-- The staged array `main_v45` when the launch begins. -/
abbrev st45 : (⟨S8192x128, .f32⟩ : BufTy).Contents (Elt Ideal) := V m c main_v45
/-- The staged array `main_v46` when the launch begins. -/
abbrev st46 : (⟨S1x256, .f32⟩ : BufTy).Contents (Elt Ideal) := V m c main_v46
/-- The staged array `main_v47` when the launch begins. -/
abbrev st47 : (⟨S1x512, .f32⟩ : BufTy).Contents (Elt Ideal) := V m c main_v47
/-- The staged array `main_v48` when the launch begins. -/
abbrev st48 : (⟨S1x512, .f32⟩ : BufTy).Contents (Elt Ideal) := V m c main_v48
/-- The staged array `main_v49` when the launch begins. -/
abbrev st49 : (⟨S1x512, .f32⟩ : BufTy).Contents (Elt Ideal) := V m c main_v49
/-- The staged array `main_v50` when the launch begins. -/
abbrev st50 : (⟨S1x256, .f32⟩ : BufTy).Contents (Elt Ideal) := V m c main_v50
/-- The staged array `main_v51` when the launch begins. -/
abbrev st51 : (⟨S1x256, .f32⟩ : BufTy).Contents (Elt Ideal) := V m c main_v51
/-- The staged array `main_v52` when the launch begins. -/
abbrev st52 : (⟨S1x256, .f32⟩ : BufTy).Contents (Elt Ideal) := V m c main_v52
/-- The staged array `main_v53` when the launch begins. -/
abbrev st53 : (⟨S1x256, .f32⟩ : BufTy).Contents (Elt Ideal) := V m c main_v53
/-- The staged array `main_v54` when the launch begins. -/
abbrev st54 : (⟨S1x256, .f32⟩ : BufTy).Contents (Elt Ideal) := V m c main_v54
/-- The staged array `main_v55` when the launch begins. -/
abbrev st55 : (⟨S1x1, .f32⟩ : BufTy).Contents (Elt Ideal) := V m c main_v55

end Cert.KerNames

end
-- ==== Proof.KerBody.lean ====
/-
  What one grid point's body leaves in its output block, read row by row at the extended reals.

  Row r of the [2048 × 1] block a grid point stores is the agent-side chain (Spec.mlpRow) applied to the hidden row
  Σ k, agg (r, k) · Wg (k, j) + bg j — the product of row r of the point's block of aggregated features with the
  projection matrix, plus its bias — and to row r of the point's block of actions, with the weight blocks read
  entry by entry. The changes of float format in the body are the identity here, the lane sums are plain sums, and a
  product into a zero accumulator is the plain contraction.
-/
import proofs.«414226_j9929964389147_2_alg».proof.Proof.Gen.KernelIdeal.Frame
import proofs.«414226_j9929964389147_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KerBody

open Cert.KernelIdeal Cert.KernelIdeal.Gen Idealize.ShloMosaic Idealize.ShloMosaic.ValueIdx

/-! ## Layout operations at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The reciprocal square root of a vector at an index is that of its entry. -/
theorem rsqrt_apply {s : Shape} {φ : FTy} (a : FVec Ideal s φ) (i : s.Idx) : rsqrt a i = Ideal.rsqrt (a i) := rfl

/-! ## A lane sum at a row -/

/-- The sum over the lanes of an `[n, c]` array, read at row `r`, is the sum of that row's entries. -/
theorem laneSum_apply {n c : ℕ} (src : FVec Ideal ⟨2, ![n, c]⟩ .f32) (h : (⟨2, ![n, c]⟩ : Shape).Reduces [1] ⟨1, ![n]⟩)
    (hφ : FKind.Formats .f32) (hacc : (0x00000000#32 : BitVec 32) = 0x00000000#32) (r : Fin n) :
    multiReduction (F := Ideal) .add [1] ⟨1, ![n]⟩ src 0x00000000#32 h hφ hacc (ix1 r) = ∑ k : Fin c, src (ix2 r k) :=
  (Ideal.multiReduction_add_single src 0x00000000#32 h hφ hacc (ix1 r)).trans
    (Finset.sum_congr rfl fun k _ => congrArg src (funext fun a => Fin.ext (by
      match a with
      | ⟨0, _⟩ => rfl
      | ⟨1, _⟩ => rfl)))

/-! ## The four products at an index

Each record contracts axis 1 of its left operand with axis 0 of its right one; its operand indices at an output index
`(r, c)` and contraction coordinate `k` are `(r, k)` and `(k, c)`. -/

theorem lhs_g_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem lhs_g_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem rhs_g_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem rhs_g_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl
/-- The [2048 × 128] by [128 × 256] product into a zero accumulator, at `(r, c)`: the sum over `k` of the products. -/
theorem matmul_g_apply {φ₁ φ₂ : FTy} (lhs : FVec Ideal S2048x128 φ₁) (rhs : FVec Ideal S128x256 φ₂) (r : Fin 2048) (c : Fin 256) :
    matmul (F := Ideal) dot_S2048x128_S128x256_S2048x256_1_0_0_1_n_n none lhs rhs (constant S2048x256 .f32 0x00000000#32) (ix2 r c)
      = ∑ k : Fin 128, lhs (ix2 r k) * rhs (ix2 k c) := by
  show FloatOps.matmul dot_S2048x128_S128x256_S2048x256_1_0_0_1_n_n none lhs rhs (constant S2048x256 .f32 0x00000000#32) (ix2 r c) = _
  rw [Ideal.matmul_constant_zero_apply, ← Equiv.sum_comp (ValueIdx.contrEquiv1 dot_S2048x128_S128x256_S2048x256_1_0_0_1_n_n 128 rfl rfl).symm]
  refine Finset.sum_congr rfl fun k _ => ?_
  have hk := ValueIdx.contrEquiv1_symm_val dot_S2048x128_S128x256_S2048x256_1_0_0_1_n_n 128 rfl rfl k
  have el : dot_S2048x128_S128x256_S2048x256_1_0_0_1_n_n.lhsIdx (ix2 r c) ((ValueIdx.contrEquiv1 dot_S2048x128_S128x256_S2048x256_1_0_0_1_n_n 128 rfl rfl).symm k) = ix2 r k := funext fun a => Fin.ext (by
    match a with
    | ⟨0, _⟩ => exact lhs_g_0 _ _
    | ⟨1, _⟩ => exact (lhs_g_1 _ _).trans hk)
  have er : dot_S2048x128_S128x256_S2048x256_1_0_0_1_n_n.rhsIdx (ix2 r c) ((ValueIdx.contrEquiv1 dot_S2048x128_S128x256_S2048x256_1_0_0_1_n_n 128 rfl rfl).symm k) = ix2 k c := funext fun a => Fin.ext (by
    match a with
    | ⟨0, _⟩ => exact (rhs_g_0 _ _).trans hk
    | ⟨1, _⟩ => exact rhs_g_1 _ _)
  rw [el, er]

theorem lhs_w1_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs_w1_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem rhs_w1_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem rhs_w1_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl
/-- The [2048 × 256] by [256 × 512] product into a zero accumulator, at `(r, c)`: the sum over `k` of the products. -/
theorem matmul_w1_apply {φ₁ φ₂ : FTy} (lhs : FVec Ideal S2048x256 φ₁) (rhs : FVec Ideal S256x512 φ₂) (r : Fin 2048) (c : Fin 512) :
    matmul (F := Ideal) dot_S2048x256_S256x512_S2048x512_1_0_0_1_n_n none lhs rhs (constant S2048x512 .f32 0x00000000#32) (ix2 r c)
      = ∑ k : Fin 256, lhs (ix2 r k) * rhs (ix2 k c) := by
  show FloatOps.matmul dot_S2048x256_S256x512_S2048x512_1_0_0_1_n_n none lhs rhs (constant S2048x512 .f32 0x00000000#32) (ix2 r c) = _
  rw [Ideal.matmul_constant_zero_apply, ← Equiv.sum_comp (ValueIdx.contrEquiv1 dot_S2048x256_S256x512_S2048x512_1_0_0_1_n_n 256 rfl rfl).symm]
  refine Finset.sum_congr rfl fun k _ => ?_
  have hk := ValueIdx.contrEquiv1_symm_val dot_S2048x256_S256x512_S2048x512_1_0_0_1_n_n 256 rfl rfl k
  have el : dot_S2048x256_S256x512_S2048x512_1_0_0_1_n_n.lhsIdx (ix2 r c) ((ValueIdx.contrEquiv1 dot_S2048x256_S256x512_S2048x512_1_0_0_1_n_n 256 rfl rfl).symm k) = ix2 r k := funext fun a => Fin.ext (by
    match a with
    | ⟨0, _⟩ => exact lhs_w1_0 _ _
    | ⟨1, _⟩ => exact (lhs_w1_1 _ _).trans hk)
  have er : dot_S2048x256_S256x512_S2048x512_1_0_0_1_n_n.rhsIdx (ix2 r c) ((ValueIdx.contrEquiv1 dot_S2048x256_S256x512_S2048x512_1_0_0_1_n_n 256 rfl rfl).symm k) = ix2 k c := funext fun a => Fin.ext (by
    match a with
    | ⟨0, _⟩ => exact (rhs_w1_0 _ _).trans hk
    | ⟨1, _⟩ => exact rhs_w1_1 _ _)
  rw [el, er]

theorem lhs_w2_0 (i : S2048x256.Idx) (q : dot_S2048x512_S512x256_S2048x256_1_0_0_1_n_n.contr.Idx) :
    (dot_S2048x512_S512x256_S2048x256_1_0_0_1_n_n.lhsIdx i q 0).val = (i 0).val := by
  unfold DotDims.lhsIdx
  rw [dif_neg (show ¬(0 : Fin S2048x512.rank) ∈ dot_S2048x512_S512x256_S2048x256_1_0_0_1_n_n.lhsBatch by decide), dif_pos (show (0 : Fin S2048x512.rank) ∈ dot_S2048x512_S512x256_S2048x256_1_0_0_1_n_n.lhsNonContracting by decide)]
  rfl
theorem lhs_w2_1 (i : S2048x256.Idx) (q : dot_S2048x512_S512x256_S2048x256_1_0_0_1_n_n.contr.Idx) :
    (dot_S2048x512_S512x256_S2048x256_1_0_0_1_n_n.lhsIdx i q 1).val = (q ⟨0, by decide⟩).val :=
  dot_S2048x512_S512x256_S2048x256_1_0_0_1_n_n.lhsIdx_val_of_single rfl i q
theorem rhs_w2_0 (i : S2048x256.Idx) (q : dot_S2048x512_S512x256_S2048x256_1_0_0_1_n_n.contr.Idx) :
    (dot_S2048x512_S512x256_S2048x256_1_0_0_1_n_n.rhsIdx i q 0).val = (q ⟨0, by decide⟩).val :=
  dot_S2048x512_S512x256_S2048x256_1_0_0_1_n_n.rhsIdx_val_of_single rfl i q
theorem rhs_w2_1 (i : S2048x256.Idx) (q : dot_S2048x512_S512x256_S2048x256_1_0_0_1_n_n.contr.Idx) :
    (dot_S2048x512_S512x256_S2048x256_1_0_0_1_n_n.rhsIdx i q 1).val = (i 1).val := by
  unfold DotDims.rhsIdx
  rw [dif_neg (show ¬(1 : Fin S512x256.rank) ∈ dot_S2048x512_S512x256_S2048x256_1_0_0_1_n_n.rhsBatch by decide), dif_pos (show (1 : Fin S512x256.rank) ∈ dot_S2048x512_S512x256_S2048x256_1_0_0_1_n_n.rhsNonContracting by decide)]
  rfl
/-- The [2048 × 512] by [512 × 256] product into a zero accumulator, at `(r, c)`: the sum over `k` of the products. -/
theorem matmul_w2_apply {φ₁ φ₂ : FTy} (lhs : FVec Ideal S2048x512 φ₁) (rhs : FVec Ideal S512x256 φ₂) (r : Fin 2048) (c : Fin 256) :
    matmul (F := Ideal) dot_S2048x512_S512x256_S2048x256_1_0_0_1_n_n none lhs rhs (constant S2048x256 .f32 0x00000000#32) (ix2 r c)
      = ∑ k : Fin 512, lhs (ix2 r k) * rhs (ix2 k c) := by
  show FloatOps.matmul dot_S2048x512_S512x256_S2048x256_1_0_0_1_n_n none lhs rhs (constant S2048x256 .f32 0x00000000#32) (ix2 r c) = _
  rw [Ideal.matmul_constant_zero_apply, ← Equiv.sum_comp (ValueIdx.contrEquiv1 dot_S2048x512_S512x256_S2048x256_1_0_0_1_n_n 512 rfl rfl).symm]
  refine Finset.sum_congr rfl fun k _ => ?_
  have hk := ValueIdx.contrEquiv1_symm_val dot_S2048x512_S512x256_S2048x256_1_0_0_1_n_n 512 rfl rfl k
  have el : dot_S2048x512_S512x256_S2048x256_1_0_0_1_n_n.lhsIdx (ix2 r c) ((ValueIdx.contrEquiv1 dot_S2048x512_S512x256_S2048x256_1_0_0_1_n_n 512 rfl rfl).symm k) = ix2 r k := funext fun a => Fin.ext (by
    match a with
    | ⟨0, _⟩ => exact lhs_w2_0 _ _
    | ⟨1, _⟩ => exact (lhs_w2_1 _ _).trans hk)
  have er : dot_S2048x512_S512x256_S2048x256_1_0_0_1_n_n.rhsIdx (ix2 r c) ((ValueIdx.contrEquiv1 dot_S2048x512_S512x256_S2048x256_1_0_0_1_n_n 512 rfl rfl).symm k) = ix2 k c := funext fun a => Fin.ext (by
    match a with
    | ⟨0, _⟩ => exact (rhs_w2_0 _ _).trans hk
    | ⟨1, _⟩ => exact rhs_w2_1 _ _)
  rw [el, er]

theorem lhs_a_0 (i : S2048x256.Idx) (q : dot_S2048x64_S64x256_S2048x256_1_0_0_1_n_n.contr.Idx) :
    (dot_S2048x64_S64x256_S2048x256_1_0_0_1_n_n.lhsIdx i q 0).val = (i 0).val := by
  unfold DotDims.lhsIdx
  rw [dif_neg (show ¬(0 : Fin S2048x64.rank) ∈ dot_S2048x64_S64x256_S2048x256_1_0_0_1_n_n.lhsBatch by decide), dif_pos (show (0 : Fin S2048x64.rank) ∈ dot_S2048x64_S64x256_S2048x256_1_0_0_1_n_n.lhsNonContracting by decide)]
  rfl
theorem lhs_a_1 (i : S2048x256.Idx) (q : dot_S2048x64_S64x256_S2048x256_1_0_0_1_n_n.contr.Idx) :
    (dot_S2048x64_S64x256_S2048x256_1_0_0_1_n_n.lhsIdx i q 1).val = (q ⟨0, by decide⟩).val :=
  dot_S2048x64_S64x256_S2048x256_1_0_0_1_n_n.lhsIdx_val_of_single rfl i q
theorem rhs_a_0 (i : S2048x256.Idx) (q : dot_S2048x64_S64x256_S2048x256_1_0_0_1_n_n.contr.Idx) :
    (dot_S2048x64_S64x256_S2048x256_1_0_0_1_n_n.rhsIdx i q 0).val = (q ⟨0, by decide⟩).val :=
  dot_S2048x64_S64x256_S2048x256_1_0_0_1_n_n.rhsIdx_val_of_single rfl i q
theorem rhs_a_1 (i : S2048x256.Idx) (q : dot_S2048x64_S64x256_S2048x256_1_0_0_1_n_n.contr.Idx) :
    (dot_S2048x64_S64x256_S2048x256_1_0_0_1_n_n.rhsIdx i q 1).val = (i 1).val := by
  unfold DotDims.rhsIdx
  rw [dif_neg (show ¬(1 : Fin S64x256.rank) ∈ dot_S2048x64_S64x256_S2048x256_1_0_0_1_n_n.rhsBatch by decide), dif_pos (show (1 : Fin S64x256.rank) ∈ dot_S2048x64_S64x256_S2048x256_1_0_0_1_n_n.rhsNonContracting by decide)]
  rfl
/-- The [2048 × 64] by [64 × 256] product into a zero accumulator, at `(r, c)`: the sum over `k` of the products. -/
theorem matmul_a_apply {φ₁ φ₂ : FTy} (lhs : FVec Ideal S2048x64 φ₁) (rhs : FVec Ideal S64x256 φ₂) (r : Fin 2048) (c : Fin 256) :
    matmul (F := Ideal) dot_S2048x64_S64x256_S2048x256_1_0_0_1_n_n none lhs rhs (constant S2048x256 .f32 0x00000000#32) (ix2 r c)
      = ∑ k : Fin 64, lhs (ix2 r k) * rhs (ix2 k c) := by
  show FloatOps.matmul dot_S2048x64_S64x256_S2048x256_1_0_0_1_n_n none lhs rhs (constant S2048x256 .f32 0x00000000#32) (ix2 r c) = _
  rw [Ideal.matmul_constant_zero_apply, ← Equiv.sum_comp (ValueIdx.contrEquiv1 dot_S2048x64_S64x256_S2048x256_1_0_0_1_n_n 64 rfl rfl).symm]
  refine Finset.sum_congr rfl fun k _ => ?_
  have hk := ValueIdx.contrEquiv1_symm_val dot_S2048x64_S64x256_S2048x256_1_0_0_1_n_n 64 rfl rfl k
  have el : dot_S2048x64_S64x256_S2048x256_1_0_0_1_n_n.lhsIdx (ix2 r c) ((ValueIdx.contrEquiv1 dot_S2048x64_S64x256_S2048x256_1_0_0_1_n_n 64 rfl rfl).symm k) = ix2 r k := funext fun a => Fin.ext (by
    match a with
    | ⟨0, _⟩ => exact lhs_a_0 _ _
    | ⟨1, _⟩ => exact (lhs_a_1 _ _).trans hk)
  have er : dot_S2048x64_S64x256_S2048x256_1_0_0_1_n_n.rhsIdx (ix2 r c) ((ValueIdx.contrEquiv1 dot_S2048x64_S64x256_S2048x256_1_0_0_1_n_n 64 rfl rfl).symm k) = ix2 k c := funext fun a => Fin.ext (by
    match a with
    | ⟨0, _⟩ => exact (rhs_a_0 _ _).trans hk
    | ⟨1, _⟩ => exact rhs_a_1 _ _)
  rw [el, er]

/-! ## The blocks read as rows and matrices -/

/-- A weight block as a matrix, entry by entry. -/
abbrev mat {K C : ℕ} (W : Vec Ideal ⟨2, ![K, C]⟩ .f32) : Fin K → Fin C → EReal := fun k c => W (ix2 k c)
/-- A one-row block as a row. -/
abbrev row {C : ℕ} (b : Vec Ideal ⟨2, ![1, C]⟩ .f32) : Fin C → EReal := fun c => b (ix2 (0 : Fin 1) c)
/-- The hidden row before its activation: row `r` of the block of aggregated features times the projection matrix,
    plus its bias. -/
abbrev hidRow (v0 : Vec Ideal S2048x128 .f32) (v3 : Vec Ideal S128x256 .f32) (v6 : Vec Ideal S1x256 .f32) (r : Fin 2048) :
    Fin 256 → EReal :=
  fun j => (∑ k : Fin 128, v0 (ix2 r k) * v3 (ix2 k j)) + v6 (ix2 (0 : Fin 1) j)
/-- The first layer's row before its normalisation. -/
abbrev lay1 (v0 : Vec Ideal S2048x128 .f32) (v3 : Vec Ideal S128x256 .f32) (v6 : Vec Ideal S1x256 .f32)
    (v13 : Vec Ideal S256x512 .f32) (v16 : Vec Ideal S1x512 .f32) (r : Fin 2048) : Fin 512 → EReal :=
  Spec.affine (Spec.relu (hidRow v0 v3 v6 r)) (mat v13) (row v16)

/-! ## The payloads at an index -/

/-- The stored value at row `r`: the head's weighted sum of the activated sum of the normalised row and the action
    branch, plus the head's bias. -/
theorem pay1_apply (v81 : FVec Ideal S2048x256 .f32) (v82 : Vec Ideal S2048x64 .f32) (v84 : Vec Ideal S64x256 .f32)
    (v87 v94 : Vec Ideal S1x256 .f32) (v100 : Vec Ideal S1x1 .f32) (r : Fin 2048) :
    k0_pay1 v81 v82 v84 v87 v94 v100 (ix2 r (0 : Fin 1))
      = (∑ c : Fin 256, Spec.relu (fun c' => v81 (ix2 r c')
            + Spec.affine (fun k => v82 (ix2 r k)) (mat v84) (row v87) c') c * row v94 c) + v100 (ix2 (0 : Fin 1) (0 : Fin 1)) := by
  unfold k0_pay1
  simp only [addf_apply, subf_apply, mulf_apply, divf_apply, maximumf_apply, rsqrt_apply, broadcast_apply, truncf_apply,
    shapeCast_self, shapeCast_a_a1_apply, broadcastTo_1b_ab_apply, broadcastTo_a1_ab_apply, Ideal.ofBits_def, Ideal.ofBits_zero_f32]
  rw [laneSum_apply]
  simp only [addf_apply, subf_apply, mulf_apply, divf_apply, maximumf_apply, rsqrt_apply, broadcast_apply, truncf_apply,
    shapeCast_self, shapeCast_a_a1_apply, broadcastTo_1b_ab_apply, broadcastTo_a1_ab_apply, Ideal.ofBits_def, Ideal.ofBits_zero_f32, matmul_a_apply]
  rfl

/-- The first layer's row before its normalisation, at `(r, c)`: the activated hidden row times the first weight
    matrix, plus its bias. -/
theorem pay2_apply (v0 : Vec Ideal S2048x128 .f32) (v3 : Vec Ideal S128x256 .f32) (v6 : Vec Ideal S1x256 .f32)
    (v13 : Vec Ideal S256x512 .f32) (v16 : Vec Ideal S1x512 .f32) (r : Fin 2048) (c : Fin 512) :
    k0_pay2 v0 v3 v6 v13 v16 (ix2 r c) = lay1 v0 v3 v6 v13 v16 r c := by
  unfold k0_pay2
  simp only [addf_apply, mulf_apply, maximumf_apply, broadcast_apply, truncf_apply, matmul_g_apply, matmul_w1_apply,
    broadcastTo_1b_ab_apply, shapeCast_self, Ideal.ofBits_def, Ideal.ofBits_zero_f32]
  rfl

/-- The first layer's mean at row `r`. -/
theorem pay5_apply (v0 : Vec Ideal S2048x128 .f32) (v3 : Vec Ideal S128x256 .f32) (v6 : Vec Ideal S1x256 .f32)
    (v13 : Vec Ideal S256x512 .f32) (v16 : Vec Ideal S1x512 .f32) (r : Fin 2048) :
    k0_pay5 v0 v3 v6 v13 v16 (ix2 r (0 : Fin 1)) = Spec.mean Spec.w512 (lay1 v0 v3 v6 v13 v16 r) := by
  unfold k0_pay5
  simp only [addf_apply, subf_apply, mulf_apply, divf_apply, maximumf_apply, rsqrt_apply, broadcast_apply, truncf_apply,
    shapeCast_self, shapeCast_a_a1_apply, broadcastTo_1b_ab_apply, broadcastTo_a1_ab_apply, Ideal.ofBits_def, Ideal.ofBits_zero_f32]
  rw [laneSum_apply]
  simp only [pay2_apply]
  rfl

/-- The first layer's centred row at `(r, c)`. -/
theorem pay7_apply (v0 : Vec Ideal S2048x128 .f32) (v3 : Vec Ideal S128x256 .f32) (v6 : Vec Ideal S1x256 .f32)
    (v13 : Vec Ideal S256x512 .f32) (v16 : Vec Ideal S1x512 .f32) (r : Fin 2048) (c : Fin 512) :
    k0_pay7 v0 v3 v6 v13 v16 (ix2 r c) = Spec.centred Spec.w512 (lay1 v0 v3 v6 v13 v16 r) c := by
  unfold k0_pay7
  simp only [addf_apply, subf_apply, mulf_apply, divf_apply, maximumf_apply, rsqrt_apply, broadcast_apply, truncf_apply,
    shapeCast_self, shapeCast_a_a1_apply, broadcastTo_1b_ab_apply, broadcastTo_a1_ab_apply, Ideal.ofBits_def, Ideal.ofBits_zero_f32, pay2_apply, pay5_apply]
  rfl

/-- The first layer's variance at row `r`. -/
theorem pay6_apply (v0 : Vec Ideal S2048x128 .f32) (v3 : Vec Ideal S128x256 .f32) (v6 : Vec Ideal S1x256 .f32)
    (v13 : Vec Ideal S256x512 .f32) (v16 : Vec Ideal S1x512 .f32) (r : Fin 2048) :
    k0_pay6 v0 v3 v6 v13 v16 (ix2 r (0 : Fin 1)) = Spec.variance Spec.w512 (lay1 v0 v3 v6 v13 v16 r) := by
  unfold k0_pay6
  simp only [addf_apply, subf_apply, mulf_apply, divf_apply, maximumf_apply, rsqrt_apply, broadcast_apply, truncf_apply,
    shapeCast_self, shapeCast_a_a1_apply, broadcastTo_1b_ab_apply, broadcastTo_a1_ab_apply, Ideal.ofBits_def, Ideal.ofBits_zero_f32]
  rw [laneSum_apply]
  simp only [addf_apply, subf_apply, mulf_apply, divf_apply, maximumf_apply, rsqrt_apply, broadcast_apply, truncf_apply,
    shapeCast_self, shapeCast_a_a1_apply, broadcastTo_1b_ab_apply, broadcastTo_a1_ab_apply, Ideal.ofBits_def, Ideal.ofBits_zero_f32, pay2_apply, pay5_apply]
  rfl

/-- The second layer's normalised row at `(r, c)`, from the first layer's centred row `v36`, variance `v34`, gain `v21` and
    offset `v23`. -/
theorem pay8_apply (v21 v23 : FVec Ideal S1x512 .f32) (v34 : FVec Ideal S2048x1 .f32) (v36 : FVec Ideal S2048x512 .f32)
    (cst : Ideal .f32) (v49 : Vec Ideal S512x256 .f32) (v52 v56 v58 : Vec Ideal S1x256 .f32) (r : Fin 2048) (c : Fin 256) :
    k0_pay8 v21 v23 v34 v36 cst v49 v52 v56 v58 (ix2 r c)
      = Spec.lnorm Spec.w256
          (Spec.affine (Spec.relu fun k => v36 (ix2 r k) * Ideal.rsqrt (v34 (ix2 r (0 : Fin 1)) + cst) * row v21 k + row v23 k)
            (mat v49) (row v52))
          (row v56) (row v58) c := by
  unfold k0_pay8
  simp only [addf_apply, subf_apply, mulf_apply, divf_apply, maximumf_apply, rsqrt_apply, broadcast_apply, truncf_apply,
    shapeCast_self, shapeCast_a_a1_apply, broadcastTo_1b_ab_apply, broadcastTo_a1_ab_apply, Ideal.ofBits_def, Ideal.ofBits_zero_f32, matmul_w2_apply]
  rw [laneSum_apply]
  simp only [addf_apply, subf_apply, mulf_apply, divf_apply, maximumf_apply, rsqrt_apply, broadcast_apply, truncf_apply,
    shapeCast_self, shapeCast_a_a1_apply, broadcastTo_1b_ab_apply, broadcastTo_a1_ab_apply, Ideal.ofBits_def, Ideal.ofBits_zero_f32, matmul_w2_apply]
  rw [laneSum_apply]
  simp only [addf_apply, subf_apply, mulf_apply, divf_apply, maximumf_apply, rsqrt_apply, broadcast_apply, truncf_apply,
    shapeCast_self, shapeCast_a_a1_apply, broadcastTo_1b_ab_apply, broadcastTo_a1_ab_apply, Ideal.ofBits_def, Ideal.ofBits_zero_f32, matmul_w2_apply]
  rw [laneSum_apply]
  simp only [addf_apply, subf_apply, mulf_apply, divf_apply, maximumf_apply, rsqrt_apply, broadcast_apply, truncf_apply,
    shapeCast_self, shapeCast_a_a1_apply, broadcastTo_1b_ab_apply, broadcastTo_a1_ab_apply, Ideal.ofBits_def, Ideal.ofBits_zero_f32, matmul_w2_apply]
  rfl

/-- Row `r` of the output block, from the sixteen input blocks. -/
theorem out16_apply (x0 : Vec Ideal S2048x128 .f32) (x1 : Vec Ideal S2048x64 .f32) (x2 : Vec Ideal S128x256 .f32)
    (x3 : Vec Ideal S1x256 .f32) (x4 : Vec Ideal S256x512 .f32) (x5 x6 x7 : Vec Ideal S1x512 .f32)
    (x8 : Vec Ideal S512x256 .f32) (x9 x10 x11 : Vec Ideal S1x256 .f32) (x12 : Vec Ideal S64x256 .f32)
    (x13 x14 : Vec Ideal S1x256 .f32) (x15 : Vec Ideal S1x1 .f32) (r : Fin 2048) :
    out0_16 (F := Ideal) x0 x1 x2 x3 x4 x5 x6 x7 x8 x9 x10 x11 x12 x13 x14 x15 (ix2 r (0 : Fin 1))
      = Spec.mlpRow (fun j => (∑ k : Fin 128, x0 (ix2 r k) * x2 (ix2 k j)) + x3 (ix2 (0 : Fin 1) j))
          (fun k => x1 (ix2 r k))
          (fun k c => x4 (ix2 k c)) (fun c => x5 (ix2 (0 : Fin 1) c)) (fun c => x6 (ix2 (0 : Fin 1) c))
          (fun c => x7 (ix2 (0 : Fin 1) c))
          (fun k c => x8 (ix2 k c)) (fun c => x9 (ix2 (0 : Fin 1) c)) (fun c => x10 (ix2 (0 : Fin 1) c))
          (fun c => x11 (ix2 (0 : Fin 1) c))
          (fun k c => x12 (ix2 k c)) (fun c => x13 (ix2 (0 : Fin 1) c)) (fun c => x14 (ix2 (0 : Fin 1) c))
          (x15 (ix2 (0 : Fin 1) (0 : Fin 1))) := by
  have hz : (![0, 0] : Fin 2 → Nat) = fun _ => 0 := funext fun a => by fin_cases a <;> rfl
  unfold out0_16
  rw [View.canon_unit_zero hz]
  simp only [View.ld_unit_zero (S := S2048x128) hz, View.ld_unit_zero (S := S2048x64) hz,
    View.ld_unit_zero (S := S128x256) hz, View.ld_unit_zero (S := S1x256) hz, View.ld_unit_zero (S := S256x512) hz,
    View.ld_unit_zero (S := S1x512) hz, View.ld_unit_zero (S := S512x256) hz, View.ld_unit_zero (S := S64x256) hz,
    View.ld_unit_zero (S := S1x1) hz]
  rw [pay1_apply]
  simp only [pay8_apply, pay7_apply, pay6_apply, k0_pay3, k0_pay4, shapeCast_self, Ideal.ofBits_def]
  rfl

end Cert.KerBody

end
-- ==== Proof.KerHostA.lean ====
/-
  The take's landing mask. An agent's index in [−50000, 50000), wrapped when negative, is a row number in [0, 49999]:
  both signed range tests hold, their conjunction reduced over the unit axis from 1 is 1, and so is its broadcast along
  the feature axis.
-/
import proofs.«414226_j9929964389147_2_alg».proof.Proof.Gen.KernelIdeal
import proofs.«414226_j9929964389147_2_alg».proof.Proof.RefRead
import proofs.«414226_j9929964389147_2_alg».proof.Proof.LibRows
import Idealize.ShloMosaic.Lib.ValueIdx
import Idealize.ShloMosaic.Lib.Pipeline.Value
import Idealize.ShloMosaic.Lib.StableHlo.Predicate
import Idealize.ShloMosaic.Lib.ReduceAll
import Idealize.ShloMosaic.PureOps.Ideal.Laws

noncomputable section

namespace Cert.KerHostA

open Cert.KernelIdeal Cert.KernelIdeal.Facts₀ Idealize.ShloMosaic
open Idealize.ShloMosaic.ValueIdx Idealize.ShloMosaic.StableHlo.Predicate Cert.LibRows

/-- A left fold by `and` over `i1` words that starts at 1 and meets only 1s is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons.2 (Or.inl rfl)), show IntOp.andi 1#1 1#1 = 1#1 from by decide]
    exact foldl_andi_one f l (fun n hn => h n (List.mem_cons_of_mem _ hn))

/-- A reduce by `and` from 1 is 1 at `j` when every operand element that reduces into `j` is 1. -/
private theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_one x _ (fun n hn => ?_)
  rw [List.mem_filter] at hn
  exact hx n (by simpa using hn.2)

private theorem toInt_zero32 : (0#32 : BitVec 32).toInt = 0 := by decide
private theorem toInt_50000 : (50000#32 : BitVec 32).toInt = 50000 := by decide
private theorem toInt_49999 : (49999#32 : BitVec 32).toInt = 49999 := by decide

/-- A signed word in [−50000, 50000), with 50000 added when it is negative, lies in [0, 49999]: the sum does not wrap. -/
private theorem wrap_in_range (w : BitVec 32) (h : (-50000 : ℤ) ≤ w.toInt ∧ w.toInt < 50000) :
    IntOp.andi (IntOp.cmpi .sge (Scalar.select (IntOp.cmpi .slt w 0#32) (IntOp.addi w 50000#32) w) 0#32)
               (IntOp.cmpi .sle (Scalar.select (IntOp.cmpi .slt w 0#32) (IntOp.addi w 50000#32) w) 49999#32) = 1#1 := by
  rw [IntOp.andi_eq_one, IntOp.cmpi_sge, IntOp.cmpi_sle, toInt_zero32, toInt_49999]
  by_cases hneg : w.toInt < 0
  · have hc : IntOp.cmpi .slt w 0#32 = 1#1 := IntOp.cmpi_slt.2 (by rw [toInt_zero32]; exact hneg)
    rw [hc, select_one]
    have hadd : (IntOp.addi w 50000#32).toInt = w.toInt + 50000 := by
      show (w + 50000#32).toInt = _
      rw [BitVec.toInt_add, toInt_50000]
      simp only [Int.bmod]
      omega
    rw [hadd]; omega
  · have hc : IntOp.cmpi .slt w 0#32 = 0#1 :=
      eq_zero_of_ne_one (fun hc => hneg (by have := IntOp.cmpi_slt.1 hc; rwa [toInt_zero32] at this))
    rw [hc, select_zero]
    omega

/-- The mask of the take at (a, k) is set when agent a's index lies in [−50000, 50000). -/
theorem take_mask_one (x3 : (⟨S8192, .i32⟩ : BufTy).Contents (Elt Ideal)) (a : Fin 8192) (k : Fin 128)
    (h : (-50000 : ℤ) ≤ (x3 (ix1 a)).toInt ∧ (x3 (ix1 a)).toInt < 50000) :
    (broadcastInDim S8192x128 ![0] bcast_S8192_S8192x128_0
      (Host.reduce IntOp.andi
        (andi (cmpi .sge (Cert.ReferenceIdeal.Read.val_main_v52 (F := Ideal) x3)
                (broadcastInDim S8192x1 ![] bcast_S_S8192x1 (constantI S_ 32 0#32)))
              (cmpi .sle (Cert.ReferenceIdeal.Read.val_main_v52 (F := Ideal) x3)
                (broadcastInDim S8192x1 ![0, 1] bcast_S1x1_S8192x1_0_1 (broadcastInDim S1x1 ![1] bcast_S1_S1x1_1 (constantI S1 32 49999#32)))))
        (constantI S_ 1 1#1) reducesTo_S8192x1_S8192_d1 h_S_) : IVec S8192x128 1) (ix2 a k) = 1#1 := by
  -- the broadcast along the feature axis reads the reduced column at row a
  rw [broadcastInDim_apply ![0] bcast_S8192_S8192x128_0 _ (ix2 a k) (ix1 a) (fun d => match d with
    | ⟨0, _⟩ => by show a.val = if (8192 : Nat) = 1 then 0 else a.val; rw [if_neg (by decide)])]
  -- the reduce over the unit axis from 1 is 1 once the one element of row a is 1
  refine reduce_andi_one _ _ _ _ _ rfl (fun i hi => ?_)
  have hi0 : (i 0).val = a.val := by
    rw [← reducesTo_S8192x1_S8192_d1.drop_apply_val_of_eq i 0 0, hi]
  have hidx : Cert.ReferenceIdeal.Read.idx_main_v52 i = ix1 a := by
    funext d
    match d with
    | ⟨0, _⟩ => exact Fin.ext hi0
  -- the element is the two range tests of the wrapped index of agent a
  show IntOp.andi (IntOp.cmpi .sge (Cert.ReferenceIdeal.Read.val_main_v52 (F := Ideal) x3 i) 0#32)
    (IntOp.cmpi .sle (Cert.ReferenceIdeal.Read.val_main_v52 (F := Ideal) x3 i) 49999#32) = 1#1
  rw [Cert.ReferenceIdeal.Read.val_main_v52_apply, hidx]
  exact wrap_in_range (x3 (ix1 a)) h

end Cert.KerHostA

end
-- ==== Proof.KerHostB.lean ====
/-
  The aggregated node features taken at an agent's row. The node array is the accumulating row scatter, into zeros, of
  the edge messages: message e is row (source of e) of the features times the weight of e, and lands on the row its
  destination index names. Taking row n of it at column k gives the sum over the edges landing on n of
  x (source e, k) · w e.
-/
import proofs.«414226_j9929964389147_2_alg».proof.Proof.Gen.KernelIdeal
import proofs.«414226_j9929964389147_2_alg».proof.Proof.RefRead
import proofs.«414226_j9929964389147_2_alg».proof.Proof.LibRows
import Idealize.ShloMosaic.Lib.ValueIdx
import Idealize.ShloMosaic.Lib.Pipeline.Value
import Idealize.ShloMosaic.Lib.StableHlo.Predicate
import Idealize.ShloMosaic.Lib.ReduceAll
import Idealize.ShloMosaic.PureOps.Ideal.Laws

noncomputable section

namespace Cert.KerHostB

open Cert.KernelIdeal Cert.KernelIdeal.Facts₀ Idealize.ShloMosaic
open Idealize.ShloMosaic.ValueIdx Idealize.ShloMosaic.StableHlo.Predicate Cert.LibRows

/-- Row (row of start index a) of the scattered messages, at column k. -/
theorem agg_apply (x0 : (⟨S50000x128, .f32⟩ : BufTy).Contents (Elt Ideal))
    (I36 I42 : (⟨S850000x1, .i32⟩ : BufTy).Contents (Elt Ideal)) (w29 : (⟨S850000, .f32⟩ : BufTy).Contents (Elt Ideal))
    (I5 : (⟨S8192x1, .i32⟩ : BufTy).Contents (Elt Ideal)) (a : Fin 8192) (k : Fin 128) :
    (Host.gather gather_S50000x128_S8192x1_S8192x128_1_0_n_n_0_1_1128
      (Host.scatterAdd scatter_S50000x128_S850000x1_S850000x128_1_0_0_1
        (broadcastInDim S50000x128 ![] bcast_S_S50000x128 (constant (F := Ideal) S_ .f32 0x00000000#32))
        I42
        (mulf
          (extf .f32 (Host.gather gather_S50000x128_S850000x1_S850000x128_1_0_n_n_0_1_1128 (truncf .bf16 x0 bitsLt_bf16_f32) I36) bitsLt_bf16_f32)
          (broadcastInDim S850000x128 ![0, 1] bcast_S850000x1_S850000x128_0_1 (broadcastInDim S850000x1 ![0] bcast_S850000_S850000x1_0 w29))))
      I5 : (⟨S8192x128, .f32⟩ : BufTy).Contents (Elt Ideal)) (ix2 a k)
      = ∑ e ∈ Finset.univ.filter (fun e : Fin 850000 =>
            (I42 (ixP e)).toInt = ((rowOf (N := 50000) (by decide) I5 a).val : ℤ)),
          x0 (ix2 (rowOf (N := 50000) (by decide) I36 e) k) * w29 (ix1 e) := by
  -- the outer gather reads the scattered array at the row the agent's index names
  rw [gather_rows (N := 50000) (C := 128) (n := 8192) _ rfl rfl rfl rfl rfl _ _ (by decide) a k]
  generalize rowOf (N := 50000) (by decide) I5 a = r
  -- the scattered array: zero plus the sum over the edges that land on row r
  rw [scatterAdd_rows (N := 50000) (C := 128) (n := 850000) _ rfl rfl rfl rfl]
  rw [broadcastInDim_apply (s := S_) (t := S50000x128) ![] bcast_S_S50000x128 _ (ix2 r k) (fun b => b.elim0) (fun b => b.elim0), constant_apply,
    Ideal.ofBits_zero_f32, zero_add]
  refine Finset.sum_congr rfl fun e _ => ?_
  -- message e at column k: row (source of e) of the features, unchanged by the two format changes, times the weight of e
  rw [mulf_apply, extf_apply,
    gather_rows (N := 50000) (C := 128) (n := 850000) _ rfl rfl rfl rfl rfl _ _ (by decide) e k, truncf_apply]
  -- the weight vector, kept as a column and laid along the rows, read at (e, k) is the weight of e
  rw [broadcastInDim_apply (s := S850000x1) (t := S850000x128) ![0, 1] bcast_S850000x1_S850000x128_0_1 _ (ix2 e k) (ixP e) (fun b => match b with
      | ⟨0, _⟩ => by show e.val = if (850000 : Nat) = 1 then 0 else e.val; rw [if_neg (by decide)]
      | ⟨1, _⟩ => by show 0 = if (1 : Nat) = 1 then 0 else k.val; rw [if_pos rfl]),
    broadcastInDim_apply (s := S850000) (t := S850000x1) ![0] bcast_S850000_S850000x1_0 w29 (ixP e) (ix1 e) (fun b => match b with
      | ⟨0, _⟩ => by show e.val = if (850000 : Nat) = 1 then 0 else e.val; rw [if_neg (by decide)])]

end Cert.KerHostB

end
-- ==== Proof.KerHost.lean ====
/-
  The arrays the kernel's windows stage, as the host operations before the launch leave them, read at an entry.

  The first window's array is the take of the aggregated node features at the agents' indices: where an agent's index,
  wrapped when negative, is a row of the node array, entry (a, k) is the node array's entry (n, k) at that row n, and the
  node array at (n, k) is the sum over the edges e that land on n of x (s e, k) · w e — the same landing test, source
  rows s e and weights w e as the reference's (its operations on the edge list are the same operations). The other
  staged arrays are the bias and gain rows laid out as [1 × C] and the head's weight column transposed.
-/
import proofs.«414226_j9929964389147_2_alg».proof.Proof.Gen.KernelIdeal.Frame
import proofs.«414226_j9929964389147_2_alg».proof.Proof.KerNames
import proofs.«414226_j9929964389147_2_alg».proof.Proof.RefRead
import proofs.«414226_j9929964389147_2_alg».proof.Proof.LibRows
import proofs.«414226_j9929964389147_2_alg».proof.Proof.KerHostA
import proofs.«414226_j9929964389147_2_alg».proof.Proof.KerHostB
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

noncomputable section

namespace Cert.KerHost

open Cert.KernelIdeal Cert.KernelIdeal.Gen Idealize.ShloMosaic Idealize.ShloMosaic.TcCoe Idealize.SL.Sem
open Idealize.ShloMosaic.ValueIdx Idealize.ShloMosaic.StableHlo.Predicate Cert.LibRows Cert.KerNames
open Idealize.ShloMosaic.StableHlo

variable (m : (ℓ : Loc nD τ sig) → Buf (Elt Ideal) ℓ) (c : Dev nD)

/-- The buffers at the launch: the last stretch of host operations, run from the contents the earlier stretches leave. -/
theorem V_last : ∃ X : Valuation τ sig (Elt Ideal), ∀ b : Ref sig .tc,
    V m c b = StableHlo.after (Gen.hostOps0_4 (F := Ideal)) X (Proc.devRef .tc b) := by
  refine ⟨StableHlo.after Gen.hostOps0_3 (StableHlo.after Gen.hostOps0_2 (StableHlo.after Gen.hostOps0_1 (StableHlo.after Gen.hostOps0 (fun b => m (c, b))))), fun b => ?_⟩
  show StableHlo.after (List.flatten [Gen.hostOps0, Gen.hostOps0_1, Gen.hostOps0_2, Gen.hostOps0_3, Gen.hostOps0_4]) _ _ = _
  rw [List.flatten_cons, StableHlo.after_append, List.flatten_cons, StableHlo.after_append, List.flatten_cons, StableHlo.after_append,
    List.flatten_cons, StableHlo.after_append, List.flatten_cons, StableHlo.after_append, List.flatten_nil, StableHlo.after_nil]

section AnyFamily
variable {F : FTy → Type} [FloatOps F] (mF : (ℓ : Loc nD τ sig) → Buf (Elt F) ℓ)

set_option maxHeartbeats 4000000 in
set_option maxRecDepth 65536 in
/-- The node array after the first three stretches: the accumulating scatter of the edge messages, its destination
    column, source column and edge weights being the reference's stages (the same operations on the edge list). -/
theorem Y_v44_gen :
    (StableHlo.after (Gen.hostOps0_2 (F := F)) (StableHlo.after Gen.hostOps0_1 (StableHlo.after Gen.hostOps0 (fun b => mF (c, b))))
        (Proc.devRef .tc main_v44) : (⟨S50000x128, .f32⟩ : BufTy).Contents (Elt F))
    = (Host.scatterAdd scatter_S50000x128_S850000x1_S850000x128_1_0_0_1
        (broadcastInDim S50000x128 ![] Facts₀.bcast_S_S50000x128 (constant (F := F) S_ .f32 0x00000000#32))
        (Cert.ReferenceIdeal.Read.val_main_v42 (F := F) (mF ((c.tc : Thread nD τ).loc main_arg1)))
        (mulf
          (extf .f32 (Host.gather gather_S50000x128_S850000x1_S850000x128_1_0_n_n_0_1_1128 (truncf .bf16 (mF ((c.tc : Thread nD τ).loc main_arg0)) Facts₀.bitsLt_bf16_f32)
            (Cert.ReferenceIdeal.Read.val_main_v36 (F := F) (mF ((c.tc : Thread nD τ).loc main_arg1)))) Facts₀.bitsLt_bf16_f32)
          (broadcastInDim S850000x128 ![0, 1] Facts₀.bcast_S850000x1_S850000x128_0_1 (broadcastInDim S850000x1 ![0] Facts₀.bcast_S850000_S850000x1_0
            (Cert.ReferenceIdeal.Read.val_main_v29 (F := F) (mF ((c.tc : Thread nD τ).loc main_arg1))))))) := by
  after_results_simp
  rfl

set_option maxHeartbeats 4000000 in
set_option maxRecDepth 65536 in
/-- The agents' indices are as launched after the first three stretches. -/
theorem Y_arg3_gen :
    (StableHlo.after (Gen.hostOps0_2 (F := F)) (StableHlo.after Gen.hostOps0_1 (StableHlo.after Gen.hostOps0 (fun b => mF (c, b))))
        (Proc.devRef .tc main_arg3) : (⟨S8192, .i32⟩ : BufTy).Contents (Elt F))
    = (mF ((c.tc : Thread nD τ).loc main_arg3)) := by
  after_results_simp

set_option maxHeartbeats 4000000 in
set_option maxRecDepth 65536 in
/-- The take: from any contents, the last two stretches leave in the staged array the select, by the landing mask of the
    wrapped agents' indices, between the node array's rows at those indices and the fill value. -/
theorem take_gen (Yv : Valuation τ sig (Elt F)) :
    (StableHlo.after (Gen.hostOps0_4 (F := F)) (StableHlo.after Gen.hostOps0_3 Yv) (Proc.devRef .tc main_v45) : (⟨S8192x128, .f32⟩ : BufTy).Contents (Elt F))
    = select (broadcastInDim S8192x128 ![0] Facts₀.bcast_S8192_S8192x128_0
      (Host.reduce IntOp.andi
        (andi (cmpi .sge (Cert.ReferenceIdeal.Read.val_main_v52 (F := F) (Yv (Proc.devRef .tc main_arg3) : (⟨S8192, .i32⟩ : BufTy).Contents (Elt F)))
                (broadcastInDim S8192x1 ![] Facts₀.bcast_S_S8192x1 (constantI S_ 32 0#32)))
              (cmpi .sle (Cert.ReferenceIdeal.Read.val_main_v52 (F := F) (Yv (Proc.devRef .tc main_arg3) : (⟨S8192, .i32⟩ : BufTy).Contents (Elt F)))
                (broadcastInDim S8192x1 ![0, 1] Facts₀.bcast_S1x1_S8192x1_0_1 (broadcastInDim S1x1 ![1] Facts₀.bcast_S1_S1x1_1 (constantI S1 32 49999#32)))))
        (constantI S_ 1 1#1) Facts₀.reducesTo_S8192x1_S8192_d1 Facts₀.h_S_) : IVec S8192x128 1)
        (Host.gather gather_S50000x128_S8192x1_S8192x128_1_0_n_n_0_1_1128 (Yv (Proc.devRef .tc main_v44) : (⟨S50000x128, .f32⟩ : BufTy).Contents (Elt F))
          (Cert.ReferenceIdeal.Read.val_main_v52 (F := F) (Yv (Proc.devRef .tc main_arg3) : (⟨S8192, .i32⟩ : BufTy).Contents (Elt F))))
        (broadcastInDim S8192x128 ![] Facts₀.bcast_S_S8192x128 (constant (F := F) S_ .f32 0x7FC00000#32)) := by
  after_results_simp
  simp only [TRef.ofBuf, TRef.toBuf, cast_eq]
  rfl

/-- The staged array of aggregated features at the launch, at any float family. -/
theorem st45_gen :
    (StableHlo.after (List.flatten [Gen.hostOps0 (F := F), Gen.hostOps0_1, Gen.hostOps0_2, Gen.hostOps0_3, Gen.hostOps0_4]) (fun b => mF (c, b))
        (Proc.devRef .tc main_v45) : (⟨S8192x128, .f32⟩ : BufTy).Contents (Elt F))
    = select (broadcastInDim S8192x128 ![0] Facts₀.bcast_S8192_S8192x128_0
      (Host.reduce IntOp.andi
        (andi (cmpi .sge (Cert.ReferenceIdeal.Read.val_main_v52 (F := F) (mF ((c.tc : Thread nD τ).loc main_arg3)))
                (broadcastInDim S8192x1 ![] Facts₀.bcast_S_S8192x1 (constantI S_ 32 0#32)))
              (cmpi .sle (Cert.ReferenceIdeal.Read.val_main_v52 (F := F) (mF ((c.tc : Thread nD τ).loc main_arg3)))
                (broadcastInDim S8192x1 ![0, 1] Facts₀.bcast_S1x1_S8192x1_0_1 (broadcastInDim S1x1 ![1] Facts₀.bcast_S1_S1x1_1 (constantI S1 32 49999#32)))))
        (constantI S_ 1 1#1) Facts₀.reducesTo_S8192x1_S8192_d1 Facts₀.h_S_) : IVec S8192x128 1)
        (Host.gather gather_S50000x128_S8192x1_S8192x128_1_0_n_n_0_1_1128 (Host.scatterAdd scatter_S50000x128_S850000x1_S850000x128_1_0_0_1
        (broadcastInDim S50000x128 ![] Facts₀.bcast_S_S50000x128 (constant (F := F) S_ .f32 0x00000000#32))
        (Cert.ReferenceIdeal.Read.val_main_v42 (F := F) (mF ((c.tc : Thread nD τ).loc main_arg1)))
        (mulf
          (extf .f32 (Host.gather gather_S50000x128_S850000x1_S850000x128_1_0_n_n_0_1_1128 (truncf .bf16 (mF ((c.tc : Thread nD τ).loc main_arg0)) Facts₀.bitsLt_bf16_f32)
            (Cert.ReferenceIdeal.Read.val_main_v36 (F := F) (mF ((c.tc : Thread nD τ).loc main_arg1)))) Facts₀.bitsLt_bf16_f32)
          (broadcastInDim S850000x128 ![0, 1] Facts₀.bcast_S850000x1_S850000x128_0_1 (broadcastInDim S850000x1 ![0] Facts₀.bcast_S850000_S850000x1_0
            (Cert.ReferenceIdeal.Read.val_main_v29 (F := F) (mF ((c.tc : Thread nD τ).loc main_arg1)))))))
          (Cert.ReferenceIdeal.Read.val_main_v52 (F := F) (mF ((c.tc : Thread nD τ).loc main_arg3))))
        (broadcastInDim S8192x128 ![] Facts₀.bcast_S_S8192x128 (constant (F := F) S_ .f32 0x7FC00000#32)) := by
  rw [List.flatten_cons, StableHlo.after_append, List.flatten_cons, StableHlo.after_append, List.flatten_cons, StableHlo.after_append,
    List.flatten_cons, StableHlo.after_append, List.flatten_cons, StableHlo.after_append, List.flatten_nil, StableHlo.after_nil]
  refine (take_gen _).trans ?_
  rw [Y_v44_gen c mF, Y_arg3_gen c mF]

end AnyFamily

/-- The staged array of aggregated features at (a, k), for agents' indices that name a row (after wrapping). -/
theorem v45_apply
    (hidx : ∀ a : Fin 8192, (-50000 : ℤ) ≤ (arg3 m c (ix1 a)).toInt ∧ (arg3 m c (ix1 a)).toInt < 50000)
    (a : Fin 8192) (k : Fin 128) :
    st45 m c (ix2 a k)
      = ∑ e ∈ Finset.univ.filter (fun e : Fin 850000 =>
            (Cert.ReferenceIdeal.Read.val_main_v42 (F := Ideal) (arg1 m c) (ixP e)).toInt
              = ((rowOf (N := 50000) (by decide) (Cert.ReferenceIdeal.Read.val_main_v52 (F := Ideal) (arg3 m c)) a).val : ℤ)),
          arg0 m c (ix2 (rowOf (N := 50000) (by decide) (Cert.ReferenceIdeal.Read.val_main_v36 (F := Ideal) (arg1 m c)) e) k)
            * Cert.ReferenceIdeal.Read.val_main_v29 (F := Ideal) (arg1 m c) (ix1 e) := by
  -- the staged array is the select, by the landing mask, between the taken rows and the fill value
  have e := st45_gen (F := Ideal) c m
  -- the mask is set at (a, k): the wrapped index names a row
  have hm := Cert.KerHostA.take_mask_one (arg3 m c) a k (hidx a)
  -- the taken row of the scattered messages, at column k
  have hg := Cert.KerHostB.agg_apply (arg0 m c) (Cert.ReferenceIdeal.Read.val_main_v36 (F := Ideal) (arg1 m c))
    (Cert.ReferenceIdeal.Read.val_main_v42 (F := Ideal) (arg1 m c)) (Cert.ReferenceIdeal.Read.val_main_v29 (F := Ideal) (arg1 m c))
    (Cert.ReferenceIdeal.Read.val_main_v52 (F := Ideal) (arg3 m c)) a k
  show (V m c main_v45 : S8192x128.Idx → EReal) (ix2 a k) = _
  refine (congrFun e (ix2 a k)).trans ?_
  rw [select_apply, hm, select_one]
  exact hg

theorem v46_apply (j : Fin 256) : st46 m c (ix2 (0 : Fin 1) j) = arg5 m c (ix1 j) := by
  obtain ⟨X, hX⟩ := V_last m c
  have hk : X (Proc.devRef .tc main_arg5) = m ((c.tc : Thread nD τ).loc main_arg5) := by
    rw [← V_main_arg5 m c, hX]
    after_results
  have e : (V m c main_v46 : S1x256.Idx → EReal) = shapeCast S1x256 (arg5 m c) shapeCasts_S256_S1x256 := by
    rw [hX]
    after_results
    rw [hk]
    rfl
  show (V m c main_v46 : S1x256.Idx → EReal) _ = _
  rw [e]
  exact shapeCast_a_1a_apply _ _ _ _

theorem v47_apply (j : Fin 512) : st47 m c (ix2 (0 : Fin 1) j) = arg7 m c (ix1 j) := by
  obtain ⟨X, hX⟩ := V_last m c
  have hk : X (Proc.devRef .tc main_arg7) = m ((c.tc : Thread nD τ).loc main_arg7) := by
    rw [← V_main_arg7 m c, hX]
    after_results
  have e : (V m c main_v47 : S1x512.Idx → EReal) = shapeCast S1x512 (arg7 m c) shapeCasts_S512_S1x512 := by
    rw [hX]
    after_results
    rw [hk]
    rfl
  show (V m c main_v47 : S1x512.Idx → EReal) _ = _
  rw [e]
  exact shapeCast_a_1a_apply _ _ _ _

theorem v48_apply (j : Fin 512) : st48 m c (ix2 (0 : Fin 1) j) = arg8 m c (ix1 j) := by
  obtain ⟨X, hX⟩ := V_last m c
  have hk : X (Proc.devRef .tc main_arg8) = m ((c.tc : Thread nD τ).loc main_arg8) := by
    rw [← V_main_arg8 m c, hX]
    after_results
  have e : (V m c main_v48 : S1x512.Idx → EReal) = shapeCast S1x512 (arg8 m c) shapeCasts_S512_S1x512 := by
    rw [hX]
    after_results
    rw [hk]
    rfl
  show (V m c main_v48 : S1x512.Idx → EReal) _ = _
  rw [e]
  exact shapeCast_a_1a_apply _ _ _ _

theorem v49_apply (j : Fin 512) : st49 m c (ix2 (0 : Fin 1) j) = arg9 m c (ix1 j) := by
  obtain ⟨X, hX⟩ := V_last m c
  have hk : X (Proc.devRef .tc main_arg9) = m ((c.tc : Thread nD τ).loc main_arg9) := by
    rw [← V_main_arg9 m c, hX]
    after_results
  have e : (V m c main_v49 : S1x512.Idx → EReal) = shapeCast S1x512 (arg9 m c) shapeCasts_S512_S1x512 := by
    rw [hX]
    after_results
    rw [hk]
    rfl
  show (V m c main_v49 : S1x512.Idx → EReal) _ = _
  rw [e]
  exact shapeCast_a_1a_apply _ _ _ _

theorem v50_apply (j : Fin 256) : st50 m c (ix2 (0 : Fin 1) j) = arg11 m c (ix1 j) := by
  obtain ⟨X, hX⟩ := V_last m c
  have hk : X (Proc.devRef .tc main_arg11) = m ((c.tc : Thread nD τ).loc main_arg11) := by
    rw [← V_main_arg11 m c, hX]
    after_results
  have e : (V m c main_v50 : S1x256.Idx → EReal) = shapeCast S1x256 (arg11 m c) shapeCasts_S256_S1x256 := by
    rw [hX]
    after_results
    rw [hk]
    rfl
  show (V m c main_v50 : S1x256.Idx → EReal) _ = _
  rw [e]
  exact shapeCast_a_1a_apply _ _ _ _

theorem v51_apply (j : Fin 256) : st51 m c (ix2 (0 : Fin 1) j) = arg12 m c (ix1 j) := by
  obtain ⟨X, hX⟩ := V_last m c
  have hk : X (Proc.devRef .tc main_arg12) = m ((c.tc : Thread nD τ).loc main_arg12) := by
    rw [← V_main_arg12 m c, hX]
    after_results
  have e : (V m c main_v51 : S1x256.Idx → EReal) = shapeCast S1x256 (arg12 m c) shapeCasts_S256_S1x256 := by
    rw [hX]
    after_results
    rw [hk]
    rfl
  show (V m c main_v51 : S1x256.Idx → EReal) _ = _
  rw [e]
  exact shapeCast_a_1a_apply _ _ _ _

theorem v52_apply (j : Fin 256) : st52 m c (ix2 (0 : Fin 1) j) = arg13 m c (ix1 j) := by
  obtain ⟨X, hX⟩ := V_last m c
  have hk : X (Proc.devRef .tc main_arg13) = m ((c.tc : Thread nD τ).loc main_arg13) := by
    rw [← V_main_arg13 m c, hX]
    after_results
  have e : (V m c main_v52 : S1x256.Idx → EReal) = shapeCast S1x256 (arg13 m c) shapeCasts_S256_S1x256 := by
    rw [hX]
    after_results
    rw [hk]
    rfl
  show (V m c main_v52 : S1x256.Idx → EReal) _ = _
  rw [e]
  exact shapeCast_a_1a_apply _ _ _ _

theorem v53_apply (j : Fin 256) : st53 m c (ix2 (0 : Fin 1) j) = arg15 m c (ix1 j) := by
  obtain ⟨X, hX⟩ := V_last m c
  have hk : X (Proc.devRef .tc main_arg15) = m ((c.tc : Thread nD τ).loc main_arg15) := by
    rw [← V_main_arg15 m c, hX]
    after_results
  have e : (V m c main_v53 : S1x256.Idx → EReal) = shapeCast S1x256 (arg15 m c) shapeCasts_S256_S1x256 := by
    rw [hX]
    after_results
    rw [hk]
    rfl
  show (V m c main_v53 : S1x256.Idx → EReal) _ = _
  rw [e]
  exact shapeCast_a_1a_apply _ _ _ _

theorem v54_apply (j : Fin 256) : st54 m c (ix2 (0 : Fin 1) j) = arg16 m c (ix2 j (0 : Fin 1)) := by
  obtain ⟨X, hX⟩ := V_last m c
  have hk : X (Proc.devRef .tc main_arg16) = m ((c.tc : Thread nD τ).loc main_arg16) := by
    rw [← V_main_arg16 m c, hX]
    after_results
  have e : (V m c main_v54 : S1x256.Idx → EReal) = transpose S1x256 [1, 0] (arg16 m c) transposes_S256x1_S1x256_1_0 := by
    rw [hX]
    after_results
    rw [hk]
  show (V m c main_v54 : S1x256.Idx → EReal) _ = _
  rw [e]
  exact transpose_apply [1, 0] _ transposes_S256x1_S1x256_1_0 _ (ix2 j (0 : Fin 1)) (fun b => match b with
    | ⟨0, _⟩ => rfl
    | ⟨1, _⟩ => rfl)

theorem v55_apply : st55 m c (ix2 (0 : Fin 1) (0 : Fin 1)) = arg17 m c (ix1 (0 : Fin 1)) := by
  obtain ⟨X, hX⟩ := V_last m c
  have hk : X (Proc.devRef .tc main_arg17) = m ((c.tc : Thread nD τ).loc main_arg17) := by
    rw [← V_main_arg17 m c, hX]
    after_results
  have e : (V m c main_v55 : S1x1.Idx → EReal) = shapeCast S1x1 (arg17 m c) shapeCasts_S1_S1x1 := by
    rw [hX]
    after_results
    rw [hk]
    rfl
  show (V m c main_v55 : S1x1.Idx → EReal) _ = _
  rw [e]
  exact shapeCast_a_1a_apply _ _ _ _

end Cert.KerHost

end
-- ==== Proof.KerIdx.lean ====
/-
  The printed index maps of the kernel's seventeen windows over the four grid points, and the array row a block row is.

  The two row windows (aggregated features, actions) and the output window sit at block row `t`; every weight window
  sits at block (0, 0), whatever the point. Each fact is decided over the grid.
-/
import proofs.«414226_j9929964389147_2_alg».proof.Proof.Gen.KernelIdeal.Frame
import proofs.«414226_j9929964389147_2_alg».proof.Proof.KerNames
import Idealize.ShloMosaic.Lib.ValueIdx

set_option maxRecDepth 16384

noncomputable section

namespace Cert.KerArray

open Cert.KernelIdeal Cert.KernelIdeal.Gen Idealize.ShloMosaic Idealize.ShloMosaic.TcCoe Idealize.SL.Sem
open Idealize.ShloMosaic.ValueIdx Cert.KerNames
open Idealize.ShloMosaic.Pipeline (Dat)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)

/-- The array row that row `r` of grid point `t`'s block is. -/
def rowAt (t : Fin cfg0.N) (r : Fin 2048) : Fin 8192 :=
  ⟨t.val * 2048 + r.val, by have := t.isLt; have h : cfg0.N = 4 := N_0; have := r.isLt; omega⟩

end Cert.KerArray

end
-- ==== Proof.KerBlkA.lean ====
/-
  Windows 0 to 5 of the kernel: each window's block at a grid point, read off its array.

  A block's coordinate on an axis is the block index times the block's extent plus the coordinate inside the block. A
  row window sits at block row `t`, so its block's row r is the array's row 2048·t + r; a weight window sits at block
  (0, 0), so its block is the array itself.
-/
import proofs.«414226_j9929964389147_2_alg».proof.Proof.KerIdx

set_option maxRecDepth 16384

noncomputable section

namespace Cert.KerArray

open Cert.KernelIdeal Cert.KernelIdeal.Gen Idealize.ShloMosaic Idealize.ShloMosaic.TcCoe Idealize.SL.Sem
open Idealize.ShloMosaic.ValueIdx Cert.KerNames
open Idealize.ShloMosaic.Pipeline (Dat)

variable (m : (ℓ : Loc nD τ sig) → Buf (Elt Ideal) ℓ)

theorem blk0 (c : Dev nD) (t : Fin cfg0.N) (r : Fin 2048) (k : Fin 128) :
    iblk m c 0 t (ix2 r k) = st45 m c (ix2 (rowAt t r) k) := by
  show V m c main_v45 (((cfg0.win 0).blk t).view.emb (ix2 r k)) = V m c main_v45 (ix2 (rowAt t r) k)
  refine congrArg (V m c main_v45) ?_
  obtain ⟨e0, e1⟩ := idx0 t
  funext a; apply Fin.ext
  match a with
  | ⟨0, _⟩ => show win0_0.index t (0 : Fin 2) * 2048 + 1 * r.val = t.val * 2048 + r.val; omega
  | ⟨1, _⟩ => show win0_0.index t (1 : Fin 2) * 128 + 1 * k.val = k.val; omega

theorem blk1 (c : Dev nD) (t : Fin cfg0.N) (r : Fin 2048) (k : Fin 64) :
    iblk m c 1 t (ix2 r k) = arg2 m c (ix2 (rowAt t r) k) := by
  show V m c main_arg2 (((cfg0.win 1).blk t).view.emb (ix2 r k)) = m ((c : Thread nD τ).loc main_arg2) (ix2 (rowAt t r) k)
  rw [V_main_arg2 m c]
  refine congrArg (m ((c : Thread nD τ).loc main_arg2)) ?_
  obtain ⟨e0, e1⟩ := idx1 t
  funext a; apply Fin.ext
  match a with
  | ⟨0, _⟩ => show win0_1.index t (0 : Fin 2) * 2048 + 1 * r.val = t.val * 2048 + r.val; omega
  | ⟨1, _⟩ => show win0_1.index t (1 : Fin 2) * 64 + 1 * k.val = k.val; omega

theorem blk2 (c : Dev nD) (t : Fin cfg0.N) (r : Fin 128) (k : Fin 256) :
    iblk m c 2 t (ix2 r k) = arg4 m c (ix2 r k) := by
  show V m c main_arg4 (((cfg0.win 2).blk t).view.emb (ix2 r k)) = m ((c : Thread nD τ).loc main_arg4) (ix2 r k)
  rw [V_main_arg4 m c]
  refine congrArg (m ((c : Thread nD τ).loc main_arg4)) ?_
  obtain ⟨e0, e1⟩ := idx2 t
  funext a; apply Fin.ext
  match a with
  | ⟨0, _⟩ => show win0_2.index t (0 : Fin 2) * 128 + 1 * r.val = r.val; omega
  | ⟨1, _⟩ => show win0_2.index t (1 : Fin 2) * 256 + 1 * k.val = k.val; omega

theorem blk3 (c : Dev nD) (t : Fin cfg0.N) (r : Fin 1) (k : Fin 256) :
    iblk m c 3 t (ix2 r k) = st46 m c (ix2 r k) := by
  show V m c main_v46 (((cfg0.win 3).blk t).view.emb (ix2 r k)) = V m c main_v46 (ix2 r k)
  refine congrArg (V m c main_v46) ?_
  obtain ⟨e0, e1⟩ := idx3 t
  funext a; apply Fin.ext
  match a with
  | ⟨0, _⟩ => show win0_3.index t (0 : Fin 2) * 1 + 1 * r.val = r.val; omega
  | ⟨1, _⟩ => show win0_3.index t (1 : Fin 2) * 256 + 1 * k.val = k.val; omega

theorem blk4 (c : Dev nD) (t : Fin cfg0.N) (r : Fin 256) (k : Fin 512) :
    iblk m c 4 t (ix2 r k) = arg6 m c (ix2 r k) := by
  show V m c main_arg6 (((cfg0.win 4).blk t).view.emb (ix2 r k)) = m ((c : Thread nD τ).loc main_arg6) (ix2 r k)
  rw [V_main_arg6 m c]
  refine congrArg (m ((c : Thread nD τ).loc main_arg6)) ?_
  obtain ⟨e0, e1⟩ := idx4 t
  funext a; apply Fin.ext
  match a with
  | ⟨0, _⟩ => show win0_4.index t (0 : Fin 2) * 256 + 1 * r.val = r.val; omega
  | ⟨1, _⟩ => show win0_4.index t (1 : Fin 2) * 512 + 1 * k.val = k.val; omega

theorem blk5 (c : Dev nD) (t : Fin cfg0.N) (r : Fin 1) (k : Fin 512) :
    iblk m c 5 t (ix2 r k) = st47 m c (ix2 r k) := by
  show V m c main_v47 (((cfg0.win 5).blk t).view.emb (ix2 r k)) = V m c main_v47 (ix2 r k)
  refine congrArg (V m c main_v47) ?_
  obtain ⟨e0, e1⟩ := idx5 t
  funext a; apply Fin.ext
  match a with
  | ⟨0, _⟩ => show win0_5.index t (0 : Fin 2) * 1 + 1 * r.val = r.val; omega
  | ⟨1, _⟩ => show win0_5.index t (1 : Fin 2) * 512 + 1 * k.val = k.val; omega

end Cert.KerArray

end
-- ==== Proof.KerBlkB.lean ====
/-
  Windows 6 to 10 of the kernel: each window's block at a grid point, read off its array.

  A block's coordinate on an axis is the block index times the block's extent plus the coordinate inside the block. A
  row window sits at block row `t`, so its block's row r is the array's row 2048·t + r; a weight window sits at block
  (0, 0), so its block is the array itself.
-/
import proofs.«414226_j9929964389147_2_alg».proof.Proof.KerIdx

set_option maxRecDepth 16384

noncomputable section

namespace Cert.KerArray

open Cert.KernelIdeal Cert.KernelIdeal.Gen Idealize.ShloMosaic Idealize.ShloMosaic.TcCoe Idealize.SL.Sem
open Idealize.ShloMosaic.ValueIdx Cert.KerNames
open Idealize.ShloMosaic.Pipeline (Dat)

variable (m : (ℓ : Loc nD τ sig) → Buf (Elt Ideal) ℓ)

theorem blk6 (c : Dev nD) (t : Fin cfg0.N) (r : Fin 1) (k : Fin 512) :
    iblk m c 6 t (ix2 r k) = st48 m c (ix2 r k) := by
  show V m c main_v48 (((cfg0.win 6).blk t).view.emb (ix2 r k)) = V m c main_v48 (ix2 r k)
  refine congrArg (V m c main_v48) ?_
  obtain ⟨e0, e1⟩ := idx6 t
  funext a; apply Fin.ext
  match a with
  | ⟨0, _⟩ => show win0_6.index t (0 : Fin 2) * 1 + 1 * r.val = r.val; omega
  | ⟨1, _⟩ => show win0_6.index t (1 : Fin 2) * 512 + 1 * k.val = k.val; omega

theorem blk7 (c : Dev nD) (t : Fin cfg0.N) (r : Fin 1) (k : Fin 512) :
    iblk m c 7 t (ix2 r k) = st49 m c (ix2 r k) := by
  show V m c main_v49 (((cfg0.win 7).blk t).view.emb (ix2 r k)) = V m c main_v49 (ix2 r k)
  refine congrArg (V m c main_v49) ?_
  obtain ⟨e0, e1⟩ := idx7 t
  funext a; apply Fin.ext
  match a with
  | ⟨0, _⟩ => show win0_7.index t (0 : Fin 2) * 1 + 1 * r.val = r.val; omega
  | ⟨1, _⟩ => show win0_7.index t (1 : Fin 2) * 512 + 1 * k.val = k.val; omega

theorem blk8 (c : Dev nD) (t : Fin cfg0.N) (r : Fin 512) (k : Fin 256) :
    iblk m c 8 t (ix2 r k) = arg10 m c (ix2 r k) := by
  show V m c main_arg10 (((cfg0.win 8).blk t).view.emb (ix2 r k)) = m ((c : Thread nD τ).loc main_arg10) (ix2 r k)
  rw [V_main_arg10 m c]
  refine congrArg (m ((c : Thread nD τ).loc main_arg10)) ?_
  obtain ⟨e0, e1⟩ := idx8 t
  funext a; apply Fin.ext
  match a with
  | ⟨0, _⟩ => show win0_8.index t (0 : Fin 2) * 512 + 1 * r.val = r.val; omega
  | ⟨1, _⟩ => show win0_8.index t (1 : Fin 2) * 256 + 1 * k.val = k.val; omega

theorem blk9 (c : Dev nD) (t : Fin cfg0.N) (r : Fin 1) (k : Fin 256) :
    iblk m c 9 t (ix2 r k) = st50 m c (ix2 r k) := by
  show V m c main_v50 (((cfg0.win 9).blk t).view.emb (ix2 r k)) = V m c main_v50 (ix2 r k)
  refine congrArg (V m c main_v50) ?_
  obtain ⟨e0, e1⟩ := idx9 t
  funext a; apply Fin.ext
  match a with
  | ⟨0, _⟩ => show win0_9.index t (0 : Fin 2) * 1 + 1 * r.val = r.val; omega
  | ⟨1, _⟩ => show win0_9.index t (1 : Fin 2) * 256 + 1 * k.val = k.val; omega

theorem blk10 (c : Dev nD) (t : Fin cfg0.N) (r : Fin 1) (k : Fin 256) :
    iblk m c 10 t (ix2 r k) = st51 m c (ix2 r k) := by
  show V m c main_v51 (((cfg0.win 10).blk t).view.emb (ix2 r k)) = V m c main_v51 (ix2 r k)
  refine congrArg (V m c main_v51) ?_
  obtain ⟨e0, e1⟩ := idx10 t
  funext a; apply Fin.ext
  match a with
  | ⟨0, _⟩ => show win0_10.index t (0 : Fin 2) * 1 + 1 * r.val = r.val; omega
  | ⟨1, _⟩ => show win0_10.index t (1 : Fin 2) * 256 + 1 * k.val = k.val; omega

end Cert.KerArray

end
-- ==== Proof.KerBlkC.lean ====
/-
  Windows 11 to 15 of the kernel: each window's block at a grid point, read off its array.

  A block's coordinate on an axis is the block index times the block's extent plus the coordinate inside the block. A
  row window sits at block row `t`, so its block's row r is the array's row 2048·t + r; a weight window sits at block
  (0, 0), so its block is the array itself.
-/
import proofs.«414226_j9929964389147_2_alg».proof.Proof.KerIdx

set_option maxRecDepth 16384

noncomputable section

namespace Cert.KerArray

open Cert.KernelIdeal Cert.KernelIdeal.Gen Idealize.ShloMosaic Idealize.ShloMosaic.TcCoe Idealize.SL.Sem
open Idealize.ShloMosaic.ValueIdx Cert.KerNames
open Idealize.ShloMosaic.Pipeline (Dat)

variable (m : (ℓ : Loc nD τ sig) → Buf (Elt Ideal) ℓ)

theorem blk11 (c : Dev nD) (t : Fin cfg0.N) (r : Fin 1) (k : Fin 256) :
    iblk m c 11 t (ix2 r k) = st52 m c (ix2 r k) := by
  show V m c main_v52 (((cfg0.win 11).blk t).view.emb (ix2 r k)) = V m c main_v52 (ix2 r k)
  refine congrArg (V m c main_v52) ?_
  obtain ⟨e0, e1⟩ := idx11 t
  funext a; apply Fin.ext
  match a with
  | ⟨0, _⟩ => show win0_11.index t (0 : Fin 2) * 1 + 1 * r.val = r.val; omega
  | ⟨1, _⟩ => show win0_11.index t (1 : Fin 2) * 256 + 1 * k.val = k.val; omega

theorem blk12 (c : Dev nD) (t : Fin cfg0.N) (r : Fin 64) (k : Fin 256) :
    iblk m c 12 t (ix2 r k) = arg14 m c (ix2 r k) := by
  show V m c main_arg14 (((cfg0.win 12).blk t).view.emb (ix2 r k)) = m ((c : Thread nD τ).loc main_arg14) (ix2 r k)
  rw [V_main_arg14 m c]
  refine congrArg (m ((c : Thread nD τ).loc main_arg14)) ?_
  obtain ⟨e0, e1⟩ := idx12 t
  funext a; apply Fin.ext
  match a with
  | ⟨0, _⟩ => show win0_12.index t (0 : Fin 2) * 64 + 1 * r.val = r.val; omega
  | ⟨1, _⟩ => show win0_12.index t (1 : Fin 2) * 256 + 1 * k.val = k.val; omega

theorem blk13 (c : Dev nD) (t : Fin cfg0.N) (r : Fin 1) (k : Fin 256) :
    iblk m c 13 t (ix2 r k) = st53 m c (ix2 r k) := by
  show V m c main_v53 (((cfg0.win 13).blk t).view.emb (ix2 r k)) = V m c main_v53 (ix2 r k)
  refine congrArg (V m c main_v53) ?_
  obtain ⟨e0, e1⟩ := idx13 t
  funext a; apply Fin.ext
  match a with
  | ⟨0, _⟩ => show win0_13.index t (0 : Fin 2) * 1 + 1 * r.val = r.val; omega
  | ⟨1, _⟩ => show win0_13.index t (1 : Fin 2) * 256 + 1 * k.val = k.val; omega

theorem blk14 (c : Dev nD) (t : Fin cfg0.N) (r : Fin 1) (k : Fin 256) :
    iblk m c 14 t (ix2 r k) = st54 m c (ix2 r k) := by
  show V m c main_v54 (((cfg0.win 14).blk t).view.emb (ix2 r k)) = V m c main_v54 (ix2 r k)
  refine congrArg (V m c main_v54) ?_
  obtain ⟨e0, e1⟩ := idx14 t
  funext a; apply Fin.ext
  match a with
  | ⟨0, _⟩ => show win0_14.index t (0 : Fin 2) * 1 + 1 * r.val = r.val; omega
  | ⟨1, _⟩ => show win0_14.index t (1 : Fin 2) * 256 + 1 * k.val = k.val; omega

theorem blk15 (c : Dev nD) (t : Fin cfg0.N) (r : Fin 1) (k : Fin 1) :
    iblk m c 15 t (ix2 r k) = st55 m c (ix2 r k) := by
  show V m c main_v55 (((cfg0.win 15).blk t).view.emb (ix2 r k)) = V m c main_v55 (ix2 r k)
  refine congrArg (V m c main_v55) ?_
  obtain ⟨e0, e1⟩ := idx15 t
  funext a; apply Fin.ext
  match a with
  | ⟨0, _⟩ => show win0_15.index t (0 : Fin 2) * 1 + 1 * r.val = r.val; omega
  | ⟨1, _⟩ => show win0_15.index t (1 : Fin 2) * 1 + 1 * k.val = k.val; omega

end Cert.KerArray

end
-- ==== Proof.KerArray.lean ====
/-
  From the blocks the grid points store to the whole output array.

  The output array has 8192 rows in four blocks of 2048: grid point t stores rows 2048·t … 2048·t + 2047. Row r of
  point t's block is the agent-side chain of row 2048·t + r of the staged array of aggregated features and of the
  actions (the two windows that move with the point), with the weight windows, which every point reads whole. So
  the array after the run is one function of the staged arrays, row by row, and the four blocks cover it.
-/
import proofs.«414226_j9929964389147_2_alg».proof.Proof.Gen.KernelIdeal.Value
import proofs.«414226_j9929964389147_2_alg».proof.Proof.KerBody
import proofs.«414226_j9929964389147_2_alg».proof.Proof.KerNames
import proofs.«414226_j9929964389147_2_alg».proof.Proof.KerBlkA
import proofs.«414226_j9929964389147_2_alg».proof.Proof.KerBlkB
import proofs.«414226_j9929964389147_2_alg».proof.Proof.KerBlkC
import proofs.«414226_j9929964389147_2_alg».proof.Proof.Spec
import Idealize.ShloMosaic.Lib.ValueIdx
import Idealize.ShloMosaic.Lib.Pipeline.Value

set_option maxRecDepth 16384

noncomputable section

namespace Cert.KerArray

open Cert.KernelIdeal Cert.KernelIdeal.Gen Idealize.ShloMosaic Idealize.ShloMosaic.TcCoe Idealize.SL.Sem
open Idealize.ShloMosaic.ValueIdx Cert.KerNames
open Idealize.ShloMosaic.Pipeline (Dat)

variable (m : (ℓ : Loc nD τ sig) → Buf (Elt Ideal) ℓ) (ρ : Dev nD → PrngReg)

/-- Row `a` of the output array as a function of the arrays the windows stage. -/
def rowK (c : Dev nD) (a : Fin 8192) : EReal :=
  Spec.mlpRow (fun j => (∑ k : Fin 128, st45 m c (ix2 a k) * arg4 m c (ix2 k j)) + st46 m c (ix2 (0 : Fin 1) j))
    (fun k => arg2 m c (ix2 a k))
    (fun k c' => arg6 m c (ix2 k c')) (fun c' => st47 m c (ix2 (0 : Fin 1) c'))
    (fun c' => st48 m c (ix2 (0 : Fin 1) c')) (fun c' => st49 m c (ix2 (0 : Fin 1) c'))
    (fun k c' => arg10 m c (ix2 k c')) (fun c' => st50 m c (ix2 (0 : Fin 1) c'))
    (fun c' => st51 m c (ix2 (0 : Fin 1) c')) (fun c' => st52 m c (ix2 (0 : Fin 1) c'))
    (fun k c' => arg14 m c (ix2 k c')) (fun c' => st53 m c (ix2 (0 : Fin 1) c'))
    (fun c' => st54 m c (ix2 (0 : Fin 1) c')) (st55 m c (ix2 (0 : Fin 1) (0 : Fin 1)))

/-- The whole output array. -/
def arrK (c : Dev nD) : S8192x1.Idx → EReal := fun i => rowK m c ⟨(i 0).val, idx2_lt0 i⟩

/-- What grid point `t` writes back is block `t` of the array function: row `r` of the stored block is the chain of the
    point's blocks' row `r`, which are the arrays' row 2048·t + r and the weight arrays themselves. -/
theorem flushed_eq (c : Dev nD) (t : Fin cfg0.N) (hf : (cfg0.win 16).flush t = true) :
    (dats m 0 c).flushed 16 t = ((cfg0.win 16).blk t).view.read (Elt Ideal) (arrK m c) := by
  rw [Cert.KernelIdeal.Value.flushed16]
  funext y
  obtain ⟨r, rfl⟩ : ∃ r : Fin 2048, y = ix2 r (0 : Fin 1) :=
    ⟨⟨(y 0).val, (y 0).isLt⟩, funext fun a => Fin.ext (by
      match a with
      | ⟨0, _⟩ => rfl
      | ⟨1, _⟩ => have h1 : (y 1).val < 1 := (y 1).isLt; show (y 1).val = 0; omega)⟩
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r (0 : Fin 1))
      = arrK m c (((cfg0.win 16).blk t).view.emb (ix2 r (0 : Fin 1)))
  refine (Cert.KerBody.out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) r).trans ?_
  have hrow : arrK m c (((cfg0.win 16).blk t).view.emb (ix2 r (0 : Fin 1))) = rowK m c (rowAt t r) := by
    unfold arrK
    refine congrArg (rowK m c) (Fin.ext ?_)
    obtain ⟨e0, e1⟩ := idx16 t
    show win0_16.index t (0 : Fin 2) * 2048 + 1 * r.val = t.val * 2048 + r.val
    omega
  rw [hrow]
  unfold rowK
  simp only [blk0 m c t, blk1 m c t, blk2 m c t, blk3 m c t, blk4 m c t, blk5 m c t, blk6 m c t, blk7 m c t, blk8 m c t, blk9 m c t, blk10 m c t, blk11 m c t, blk12 m c t, blk13 m c t, blk14 m c t, blk15 m c t]

/-- An index of the output array is in grid point `t`'s block iff each coordinate is in the block's range. -/
theorem mem_blk16 (t : Fin cfg0.N) (i : S8192x1.Idx) :
    i ∈ ((cfg0.win 16).blk t).view.set ↔ ∀ a : Fin 2, win0_16.index t a * S2048x1.size a ≤ (i a).val
      ∧ (i a).val < win0_16.index t a * S2048x1.size a + S2048x1.size a := by
  show i ∈ ((View.whole main_v56).slice (win0_16.rect t)).set ↔ _
  rw [View.set_slice_whole, Rect.mem_set_unit]
  exact Iff.rfl

/-- The output array after the run: the four blocks cover it (row a lies in the block of point a / 2048). -/
theorem final16 (c : Dev nD) : (dats m 0 c).arrAt 16 cfg0.N = arrK m c :=
  (dats m 0 c).arrAt_eq_of_cover 16 (arrK m c) (flushed_eq m c) fun i => by
    have h0 : (i 0).val < 8192 := (i 0).isLt
    have h1 : (i 1).val < 1 := (i 1).isLt
    have hN : cfg0.N = 4 := N_0
    refine ⟨⟨(i 0).val / 2048, by omega⟩, flush0_16 _, ?_⟩
    rw [mem_blk16]
    obtain ⟨e0, e1⟩ := idx16 ⟨(i 0).val / 2048, by omega⟩
    intro a
    match a with
    | ⟨0, _⟩ =>
      show win0_16.index ⟨(i 0).val / 2048, _⟩ (0 : Fin 2) * 2048 ≤ (i 0).val
        ∧ (i 0).val < win0_16.index ⟨(i 0).val / 2048, _⟩ (0 : Fin 2) * 2048 + 2048
      simp only at e0
      omega
    | ⟨1, _⟩ =>
      show win0_16.index ⟨(i 0).val / 2048, _⟩ (1 : Fin 2) * 1 ≤ (i 1).val
        ∧ (i 1).val < win0_16.index ⟨(i 0).val / 2048, _⟩ (1 : Fin 2) * 1 + 1
      omega

/-- The kernel's run with its result array named row by row. -/
theorem run : θ_run defs (onTc (τ := τ) (main (F := Ideal))) ⟨m, fun _ => 0, ρ⟩ fun r => ∀ c : Dev nD,
      r.2.mem ((c.tc : Thread nD τ).loc main_v56) = arrK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c => ⟨(h c).1.trans (final16 m c), (h c).2⟩) (Cert.KernelIdeal.Value.run_blocks m ρ)

end Cert.KerArray

end
-- ==== Proof.RefMlp.lean ====
/-
  The reference's result read row by row at the extended reals, from its gathered hidden rows on.

  Entry (a, 0) of the reference's [8192 × 1] result is the agent-side chain (Spec.mlpRow) applied to row a of the
  gathered hidden array (before its activation) and to row a of the actions, with the weight arrays read entry by
  entry: each host operation after the gather acts on one row at a time (entrywise operations, row broadcasts, row
  sums, products with a weight matrix), so the composed term at (a, 0) only reads row a.
-/
import proofs.«414226_j9929964389147_2_alg».proof.Proof.RefRead
import proofs.«414226_j9929964389147_2_alg».proof.Proof.Spec
import Idealize.ShloMosaic.Lib.ValueIdx
import Idealize.ShloMosaic.PureOps.Ideal.Laws

noncomputable section

namespace Cert.RefMlp

open Cert.ReferenceIdeal Cert.ReferenceIdeal.Read Idealize.ShloMosaic Idealize.ShloMosaic.ValueIdx

section Stages

variable
  (x0 : (⟨S50000x128, .f32⟩ : BufTy).Contents (Elt Ideal)) (x1 : (⟨S2x800000, .i32⟩ : BufTy).Contents (Elt Ideal))
  (x2 : (⟨S8192x64, .f32⟩ : BufTy).Contents (Elt Ideal)) (x3 : (⟨S8192, .i32⟩ : BufTy).Contents (Elt Ideal))
  (x4 : (⟨S128x256, .f32⟩ : BufTy).Contents (Elt Ideal)) (x5 : (⟨S256, .f32⟩ : BufTy).Contents (Elt Ideal))
  (x6 : (⟨S256x512, .f32⟩ : BufTy).Contents (Elt Ideal)) (x7 x8 x9 : (⟨S512, .f32⟩ : BufTy).Contents (Elt Ideal))
  (x10 : (⟨S512x256, .f32⟩ : BufTy).Contents (Elt Ideal)) (x11 x12 x13 : (⟨S256, .f32⟩ : BufTy).Contents (Elt Ideal))
  (x14 : (⟨S64x256, .f32⟩ : BufTy).Contents (Elt Ideal)) (x15 : (⟨S256, .f32⟩ : BufTy).Contents (Elt Ideal))
  (x16 : (⟨S256x1, .f32⟩ : BufTy).Contents (Elt Ideal)) (x17 : (⟨S1, .f32⟩ : BufTy).Contents (Elt Ideal)) (a : Fin 8192)

/-- Two rank-2 indices with the same two coordinates are equal. -/
local macro "idx2" : tactic =>
  `(tactic| exact funext fun d => Fin.ext (by match d with | ⟨0, _⟩ => rfl | ⟨1, _⟩ => rfl))
/-- Two rank-1 indices with the same coordinate are equal. -/
local macro "idx1" : tactic =>
  `(tactic| exact funext fun d => Fin.ext (by match d with | ⟨0, _⟩ => rfl))

/-- The hidden row's activation: entry `j` of row `a` after the first positive part. -/
theorem relu1 (j : Fin 256) :
    val_main_v54 (F := Ideal) x0 x1 x3 x4 x5 (ix2 a j)
      = Spec.relu (fun j => val_main_v53 (F := Ideal) x0 x1 x3 x4 x5 (ix2 a j)) j := by
  rw [val_main_v54_apply, val_main_call1_v0_apply, val_main_call1_cst_apply]
  simp only [Spec.relu, Ideal.maximumf_def, Ideal.ofBits_def, Ideal.ofBits_zero_f32]

/-- The first affine layer: row `a` times the first weight matrix, plus the first bias row. -/
theorem aff1 (r : Fin 256 → EReal) (hr : ∀ j, val_main_v54 (F := Ideal) x0 x1 x3 x4 x5 (ix2 a j) = r j) (c : Fin 512) :
    val_main_v58 (F := Ideal) x0 x1 x3 x4 x5 x6 x7 (ix2 a c)
      = Spec.affine r (fun k c => x6 (ix2 k c)) (fun c => x7 (ix1 c)) c := by
  rw [val_main_v58_apply, val_main_v55_apply, val_main_v57_apply, val_main_v56_apply]
  simp only [Spec.affine, Ideal.addf_def]
  have hl : ∀ k, lidx_main_v55 (ix2 a c) k = ix2 a k := fun k => by idx2
  have hx : ∀ k, ridx_main_v55 (ix2 a c) k = ix2 k c := fun k => by idx2
  have hb : idx_main_v56 (idx_main_v57 (ix2 a c)) = ix1 c := by idx1
  rw [hb]
  exact congrArg (· + x7 (ix1 c)) (Finset.sum_congr rfl fun k _ => by rw [hl k, hx k, hr k])

/-- The mean of the first affine row. -/
theorem mean1 (r : Fin 512 → EReal) (hr : ∀ c, val_main_v58 (F := Ideal) x0 x1 x3 x4 x5 x6 x7 (ix2 a c) = r c) :
    val_main_v62 (F := Ideal) x0 x1 x3 x4 x5 x6 x7 (ix2 a (0 : Fin 1)) = Spec.mean Spec.w512 r := by
  rw [val_main_v62_apply, val_main_v60_apply, val_main_v59_apply, val_main_v61_apply, val_main_cst_11_apply,
    val_main_cst_12_apply]
  simp only [Spec.mean, Ideal.hostDivf_def, Ideal.ofBits_def, Ideal.ofBits_zero_f32, zero_add]
  have hi : ∀ k, idx_main_v59 (idx_main_v60 (ix2 a (0 : Fin 1))) k = ix2 a k := fun k => by idx2
  exact congrArg (Ideal.div · Spec.w512) (Finset.sum_congr rfl fun k _ => by rw [hi k, hr k])

/-- The first affine row, centred (the form the variance is taken of). -/
theorem cen1 (r : Fin 512 → EReal) (hr : ∀ c, val_main_v58 (F := Ideal) x0 x1 x3 x4 x5 x6 x7 (ix2 a c) = r c) (c : Fin 512) :
    val_main_v64 (F := Ideal) x0 x1 x3 x4 x5 x6 x7 (ix2 a c) = Spec.centred Spec.w512 r c := by
  rw [val_main_v64_apply, val_main_v63_apply, hr c]
  have hi : idx_main_v63 (ix2 a c) = ix2 a (0 : Fin 1) := by idx2
  rw [hi, mean1 x0 x1 x3 x4 x5 x6 x7 a r hr]
  simp only [Spec.centred, Ideal.subf_def]

/-- The variance of the first affine row. -/
theorem var1 (r : Fin 512 → EReal) (hr : ∀ c, val_main_v58 (F := Ideal) x0 x1 x3 x4 x5 x6 x7 (ix2 a c) = r c) :
    val_main_v69 (F := Ideal) x0 x1 x3 x4 x5 x6 x7 (ix2 a (0 : Fin 1)) = Spec.variance Spec.w512 r := by
  rw [val_main_v69_apply, val_main_v67_apply, val_main_v66_apply, val_main_v68_apply, val_main_cst_13_apply,
    val_main_cst_14_apply]
  simp only [Spec.variance, Spec.mean, Ideal.hostDivf_def, Ideal.ofBits_def, Ideal.ofBits_zero_f32, zero_add]
  have hi : ∀ k, idx_main_v66 (idx_main_v67 (ix2 a (0 : Fin 1))) k = ix2 a k := fun k => by idx2
  refine congrArg (Ideal.div · Spec.w512) (Finset.sum_congr rfl fun k _ => ?_)
  rw [hi k, val_main_v65_apply, cen1 x0 x1 x3 x4 x5 x6 x7 a r hr k]
  simp only [Ideal.mulf_def]

/-- The first normalised row: the centred row times the reciprocal root of the offset variance, scaled and shifted. -/
theorem norm1 (r : Fin 512 → EReal) (hr : ∀ c, val_main_v58 (F := Ideal) x0 x1 x3 x4 x5 x6 x7 (ix2 a c) = r c) (c : Fin 512) :
    val_main_v82 (F := Ideal) x0 x1 x3 x4 x5 x6 x7 x8 x9 (ix2 a c)
      = Spec.lnorm Spec.w512 r (fun c => x8 (ix1 c)) (fun c => x9 (ix1 c)) c := by
  rw [val_main_v82_apply, val_main_v79_apply, val_main_v76_apply, val_main_v71_apply, val_main_v70_apply,
    val_main_v75_apply, val_main_v74_apply, val_main_v73_apply, val_main_v72_apply, val_main_cst_15_apply,
    val_main_v78_apply, val_main_v77_apply, val_main_v81_apply, val_main_v80_apply, hr c]
  have h70 : idx_main_v70 (ix2 a c) = ix2 a (0 : Fin 1) := by idx2
  have h75 : idx_main_v75 (ix2 a c) = ix2 a (0 : Fin 1) := by idx2
  have h78 : idx_main_v77 (idx_main_v78 (ix2 a c)) = ix1 c := by idx1
  have h81 : idx_main_v80 (idx_main_v81 (ix2 a c)) = ix1 c := by idx1
  rw [h70, h75, h78, h81, mean1 x0 x1 x3 x4 x5 x6 x7 a r hr, var1 x0 x1 x3 x4 x5 x6 x7 a r hr]
  simp only [Spec.lnorm, Spec.centred, Ideal.addf_def, Ideal.subf_def, Ideal.mulf_def, Ideal.hostUnary_rsqrt_def,
    Ideal.ofBits_def]

/-- The second positive part. -/
theorem relu2 (r : Fin 512 → EReal) (hr : ∀ c, val_main_v82 (F := Ideal) x0 x1 x3 x4 x5 x6 x7 x8 x9 (ix2 a c) = r c)
    (c : Fin 512) :
    val_main_v83 (F := Ideal) x0 x1 x3 x4 x5 x6 x7 x8 x9 (ix2 a c) = Spec.relu r c := by
  rw [val_main_v83_apply, val_main_call2_v0_apply, val_main_call2_cst_apply, hr c]
  simp only [Spec.relu, Ideal.maximumf_def, Ideal.ofBits_def, Ideal.ofBits_zero_f32]

/-- The second affine layer: the activated normalised row times the second weight matrix, plus the second bias row. -/
theorem aff2 (r : Fin 512 → EReal) (hr : ∀ c, val_main_v83 (F := Ideal) x0 x1 x3 x4 x5 x6 x7 x8 x9 (ix2 a c) = r c)
    (c : Fin 256) :
    val_main_v87 (F := Ideal) x0 x1 x3 x4 x5 x6 x7 x8 x9 x10 x11 (ix2 a c)
      = Spec.affine r (fun k c => x10 (ix2 k c)) (fun c => x11 (ix1 c)) c := by
  rw [val_main_v87_apply, val_main_v84_apply, val_main_v86_apply, val_main_v85_apply]
  simp only [Spec.affine, Ideal.addf_def]
  have hl : ∀ k, lidx_main_v84 (ix2 a c) k = ix2 a k := fun k => by idx2
  have hx : ∀ k, ridx_main_v84 (ix2 a c) k = ix2 k c := fun k => by idx2
  have hb : idx_main_v85 (idx_main_v86 (ix2 a c)) = ix1 c := by idx1
  rw [hb]
  exact congrArg (· + x11 (ix1 c)) (Finset.sum_congr rfl fun k _ => by rw [hl k, hx k, hr k])

/-- The mean of the second affine row. -/
theorem mean2 (r : Fin 256 → EReal) (hr : ∀ c, val_main_v87 (F := Ideal) x0 x1 x3 x4 x5 x6 x7 x8 x9 x10 x11 (ix2 a c) = r c) :
    val_main_v91 (F := Ideal) x0 x1 x3 x4 x5 x6 x7 x8 x9 x10 x11 (ix2 a (0 : Fin 1)) = Spec.mean Spec.w256 r := by
  rw [val_main_v91_apply, val_main_v89_apply, val_main_v88_apply, val_main_v90_apply, val_main_cst_16_apply,
    val_main_cst_17_apply]
  simp only [Spec.mean, Ideal.hostDivf_def, Ideal.ofBits_def, Ideal.ofBits_zero_f32, zero_add]
  have hi : ∀ k, idx_main_v88 (idx_main_v89 (ix2 a (0 : Fin 1))) k = ix2 a k := fun k => by idx2
  exact congrArg (Ideal.div · Spec.w256) (Finset.sum_congr rfl fun k _ => by rw [hi k, hr k])

/-- The second affine row, centred (the form the variance is taken of). -/
theorem cen2 (r : Fin 256 → EReal) (hr : ∀ c, val_main_v87 (F := Ideal) x0 x1 x3 x4 x5 x6 x7 x8 x9 x10 x11 (ix2 a c) = r c) (c : Fin 256) :
    val_main_v93 (F := Ideal) x0 x1 x3 x4 x5 x6 x7 x8 x9 x10 x11 (ix2 a c) = Spec.centred Spec.w256 r c := by
  rw [val_main_v93_apply, val_main_v92_apply, hr c]
  have hi : idx_main_v92 (ix2 a c) = ix2 a (0 : Fin 1) := by idx2
  rw [hi, mean2 x0 x1 x3 x4 x5 x6 x7 x8 x9 x10 x11 a r hr]
  simp only [Spec.centred, Ideal.subf_def]

/-- The variance of the second affine row. -/
theorem var2 (r : Fin 256 → EReal) (hr : ∀ c, val_main_v87 (F := Ideal) x0 x1 x3 x4 x5 x6 x7 x8 x9 x10 x11 (ix2 a c) = r c) :
    val_main_v98 (F := Ideal) x0 x1 x3 x4 x5 x6 x7 x8 x9 x10 x11 (ix2 a (0 : Fin 1)) = Spec.variance Spec.w256 r := by
  rw [val_main_v98_apply, val_main_v96_apply, val_main_v95_apply, val_main_v97_apply, val_main_cst_18_apply,
    val_main_cst_19_apply]
  simp only [Spec.variance, Spec.mean, Ideal.hostDivf_def, Ideal.ofBits_def, Ideal.ofBits_zero_f32, zero_add]
  have hi : ∀ k, idx_main_v95 (idx_main_v96 (ix2 a (0 : Fin 1))) k = ix2 a k := fun k => by idx2
  refine congrArg (Ideal.div · Spec.w256) (Finset.sum_congr rfl fun k _ => ?_)
  rw [hi k, val_main_v94_apply, cen2 x0 x1 x3 x4 x5 x6 x7 x8 x9 x10 x11 a r hr k]
  simp only [Ideal.mulf_def]

/-- The second normalised row. -/
theorem norm2 (r : Fin 256 → EReal) (hr : ∀ c, val_main_v87 (F := Ideal) x0 x1 x3 x4 x5 x6 x7 x8 x9 x10 x11 (ix2 a c) = r c) (c : Fin 256) :
    val_main_v111 (F := Ideal) x0 x1 x3 x4 x5 x6 x7 x8 x9 x10 x11 x12 x13 (ix2 a c)
      = Spec.lnorm Spec.w256 r (fun c => x12 (ix1 c)) (fun c => x13 (ix1 c)) c := by
  rw [val_main_v111_apply, val_main_v108_apply, val_main_v105_apply, val_main_v100_apply, val_main_v99_apply,
    val_main_v104_apply, val_main_v103_apply, val_main_v102_apply, val_main_v101_apply, val_main_cst_20_apply,
    val_main_v107_apply, val_main_v106_apply, val_main_v110_apply, val_main_v109_apply, hr c]
  have h99 : idx_main_v99 (ix2 a c) = ix2 a (0 : Fin 1) := by idx2
  have h104 : idx_main_v104 (ix2 a c) = ix2 a (0 : Fin 1) := by idx2
  have h107 : idx_main_v106 (idx_main_v107 (ix2 a c)) = ix1 c := by idx1
  have h110 : idx_main_v109 (idx_main_v110 (ix2 a c)) = ix1 c := by idx1
  rw [h99, h104, h107, h110, mean2 x0 x1 x3 x4 x5 x6 x7 x8 x9 x10 x11 a r hr, var2 x0 x1 x3 x4 x5 x6 x7 x8 x9 x10 x11 a r hr]
  simp only [Spec.lnorm, Spec.centred, Ideal.addf_def, Ideal.subf_def, Ideal.mulf_def, Ideal.hostUnary_rsqrt_def,
    Ideal.ofBits_def]

/-- The action row's affine layer. -/
theorem affA (c : Fin 256) :
    val_main_v115 (F := Ideal) x2 x14 x15 (ix2 a c)
      = Spec.affine (fun k => x2 (ix2 a k)) (fun k c => x14 (ix2 k c)) (fun c => x15 (ix1 c)) c := by
  rw [val_main_v115_apply, val_main_v112_apply, val_main_v114_apply, val_main_v113_apply]
  simp only [Spec.affine, Ideal.addf_def]
  have hl : ∀ k, lidx_main_v112 (ix2 a c) k = ix2 a k := fun k => by idx2
  have hx : ∀ k, ridx_main_v112 (ix2 a c) k = ix2 k c := fun k => by idx2
  have hb : idx_main_v113 (idx_main_v114 (ix2 a c)) = ix1 c := by idx1
  rw [hb]
  exact congrArg (· + x15 (ix1 c)) (Finset.sum_congr rfl fun k _ => by rw [hl k, hx k])

/-- The sum of the two branches, and its positive part. -/
theorem relu3 (r s : Fin 256 → EReal)
    (hr : ∀ c, val_main_v111 (F := Ideal) x0 x1 x3 x4 x5 x6 x7 x8 x9 x10 x11 x12 x13 (ix2 a c) = r c)
    (hs : ∀ c, val_main_v115 (F := Ideal) x2 x14 x15 (ix2 a c) = s c) (c : Fin 256) :
    val_main_v117 (F := Ideal) x0 x1 x2 x3 x4 x5 x6 x7 x8 x9 x10 x11 x12 x13 x14 x15 (ix2 a c)
      = Spec.relu (fun c' => r c' + s c') c := by
  rw [val_main_v117_apply, val_main_v116_apply, val_main_call3_v0_apply, val_main_call3_cst_apply, hr c, hs c]
  simp only [Spec.relu, Ideal.maximumf_def, Ideal.addf_def, Ideal.ofBits_def, Ideal.ofBits_zero_f32]

/-- The head: the activated row against the last weight column, plus the last bias. -/
theorem head (r : Fin 256 → EReal)
    (hr : ∀ c, val_main_v117 (F := Ideal) x0 x1 x2 x3 x4 x5 x6 x7 x8 x9 x10 x11 x12 x13 x14 x15 (ix2 a c) = r c) :
    val_main_v121 (F := Ideal) x0 x1 x2 x3 x4 x5 x6 x7 x8 x9 x10 x11 x12 x13 x14 x15 x16 x17 (ix2 a (0 : Fin 1))
      = (∑ c : Fin 256, r c * x16 (ix2 c (0 : Fin 1))) + x17 (ix1 (0 : Fin 1)) := by
  rw [val_main_v121_apply, val_main_v118_apply, val_main_v120_apply, val_main_v119_apply]
  simp only [Ideal.addf_def]
  have hl : ∀ k, lidx_main_v118 (ix2 a (0 : Fin 1)) k = ix2 a k := fun k => by idx2
  have hx : ∀ k, ridx_main_v118 (ix2 a (0 : Fin 1)) k = ix2 k (0 : Fin 1) := fun k => by idx2
  have hb : idx_main_v119 (idx_main_v120 (ix2 a (0 : Fin 1))) = ix1 (0 : Fin 1) := by idx1
  rw [hb]
  exact congrArg (· + x17 (ix1 (0 : Fin 1))) (Finset.sum_congr rfl fun k _ => by rw [hl k, hx k, hr k])

end Stages

/-- Entry (a, 0) of the reference's result. -/
theorem ref_apply (x0 : (⟨S50000x128, .f32⟩ : BufTy).Contents (Elt Ideal)) (x1 : (⟨S2x800000, .i32⟩ : BufTy).Contents (Elt Ideal))
    (x2 : (⟨S8192x64, .f32⟩ : BufTy).Contents (Elt Ideal)) (x3 : (⟨S8192, .i32⟩ : BufTy).Contents (Elt Ideal))
    (x4 : (⟨S128x256, .f32⟩ : BufTy).Contents (Elt Ideal)) (x5 : (⟨S256, .f32⟩ : BufTy).Contents (Elt Ideal))
    (x6 : (⟨S256x512, .f32⟩ : BufTy).Contents (Elt Ideal)) (x7 x8 x9 : (⟨S512, .f32⟩ : BufTy).Contents (Elt Ideal))
    (x10 : (⟨S512x256, .f32⟩ : BufTy).Contents (Elt Ideal)) (x11 x12 x13 : (⟨S256, .f32⟩ : BufTy).Contents (Elt Ideal))
    (x14 : (⟨S64x256, .f32⟩ : BufTy).Contents (Elt Ideal)) (x15 : (⟨S256, .f32⟩ : BufTy).Contents (Elt Ideal))
    (x16 : (⟨S256x1, .f32⟩ : BufTy).Contents (Elt Ideal)) (x17 : (⟨S1, .f32⟩ : BufTy).Contents (Elt Ideal)) (a : Fin 8192) :
    val_main_v121 (F := Ideal) x0 x1 x2 x3 x4 x5 x6 x7 x8 x9 x10 x11 x12 x13 x14 x15 x16 x17 (ix2 a (0 : Fin 1))
      = Spec.mlpRow (fun j => val_main_v53 (F := Ideal) x0 x1 x3 x4 x5 (ix2 a j)) (fun k => x2 (ix2 a k))
          (fun k c => x6 (ix2 k c)) (fun c => x7 (ix1 c)) (fun c => x8 (ix1 c)) (fun c => x9 (ix1 c))
          (fun k c => x10 (ix2 k c)) (fun c => x11 (ix1 c)) (fun c => x12 (ix1 c)) (fun c => x13 (ix1 c))
          (fun k c => x14 (ix2 k c)) (fun c => x15 (ix1 c)) (fun c => x16 (ix2 c (0 : Fin 1))) (x17 (ix1 (0 : Fin 1))) := by
  have h54 := relu1 x0 x1 x3 x4 x5 a
  have h58 := aff1 x0 x1 x3 x4 x5 x6 x7 a _ h54
  have h82 := norm1 x0 x1 x3 x4 x5 x6 x7 x8 x9 a _ h58
  have h83 := relu2 x0 x1 x3 x4 x5 x6 x7 x8 x9 a _ h82
  have h87 := aff2 x0 x1 x3 x4 x5 x6 x7 x8 x9 x10 x11 a _ h83
  have h111 := norm2 x0 x1 x3 x4 x5 x6 x7 x8 x9 x10 x11 x12 x13 a _ h87
  have h115 := affA x2 x14 x15 a
  have h117 := relu3 x0 x1 x2 x3 x4 x5 x6 x7 x8 x9 x10 x11 x12 x13 x14 x15 a _ _ h111 h115
  exact head x0 x1 x2 x3 x4 x5 x6 x7 x8 x9 x10 x11 x12 x13 x14 x15 x16 x17 a _ h117

end Cert.RefMlp

end
-- ==== Proof.RefHidden.lean ====
/-
  The reference's gathered hidden rows, before their activation, read at an entry; and the edge weights are real.

  Entry (a, j) of the gathered array is the entry (n, j) of the node array at the row n the agent's index names
  (read signed, wrapped when negative, clamped). The node array at (n, j) is the sum, over the edges e that land on
  n (destination word read signed), of (Σ k, x (s e, k) · Wg (k, j)) · w e, plus bg j — s e the edge's source row
  (wrapped, clamped), w e its weight: the product of the inverse square roots of the two end nodes' degrees, each
  taken as zero where the degree is not positive. A degree is a finite count, so every weight is a real number.
-/
import proofs.«414226_j9929964389147_2_alg».proof.Proof.RefRead
import proofs.«414226_j9929964389147_2_alg».proof.Proof.LibRows
import proofs.«414226_j9929964389147_2_alg».proof.Proof.LibLinear
import Idealize.ShloMosaic.Lib.ValueIdx
import Idealize.ShloMosaic.Lib.StableHlo.Predicate
import Idealize.ShloMosaic.PureOps.Ideal.Laws

noncomputable section

namespace Cert.RefHidden

open Cert.ReferenceIdeal Cert.ReferenceIdeal.Read Idealize.ShloMosaic Idealize.ShloMosaic.ValueIdx
open Idealize.ShloMosaic.StableHlo.Predicate Cert.LibRows

variable (x0 : (⟨S50000x128, .f32⟩ : BufTy).Contents (Elt Ideal)) (x1 : (⟨S2x800000, .i32⟩ : BufTy).Contents (Elt Ideal))
  (x3 : (⟨S8192, .i32⟩ : BufTy).Contents (Elt Ideal)) (x4 : (⟨S128x256, .f32⟩ : BufTy).Contents (Elt Ideal))
  (x5 : (⟨S256, .f32⟩ : BufTy).Contents (Elt Ideal))

/-- The constant 1.0 is a real number. -/
theorem one_real : ∃ r : ℝ, Ideal.ofBits .f32 0x3F800000#32 = (r : EReal) := by
  show ∃ r : ℝ, Ideal.ieee 8 23 (0x3F800000#32 : BitVec 32) = (r : EReal)
  unfold Ideal.ieee
  simp only []
  rw [if_neg (by decide), if_neg (by decide)]
  exact ⟨_, rfl⟩

/-- Every degree is a real number: zero plus a finite sum of ones. -/
theorem deg_real (i : S50000.Idx) : ∃ r : ℝ, val_main_v10 (F := Ideal) x1 i = (r : EReal) := by
  unfold val_main_v10
  refine scatterAdd_real _ _ _ _ (fun i => ⟨0, ?_⟩) (fun j => ?_) i
  · rw [val_main_v8_apply, val_main_cst_0_apply]; exact Ideal.ofBits_zero_f32
  · rw [val_main_v7_apply, val_main_cst_apply]; exact one_real

/-- The inverse square root of a degree, taken as zero where the degree is not positive, is a real number. -/
theorem v14_real (i : S50000.Idx) : ∃ r : ℝ, val_main_v14 (F := Ideal) x1 i = (r : EReal) := by
  rw [val_main_v14_apply]
  by_cases hb : val_main_v12 (F := Ideal) x1 i = 1#1
  · rw [hb, select_one, val_main_v13_apply, Ideal.hostUnary_rsqrt_def]
    obtain ⟨d, hd⟩ := deg_real x1 i
    -- the bit is set exactly where the degree is above zero
    have hpos : (0 : EReal) < val_main_v10 (F := Ideal) x1 i := by
      have h11 : val_main_v11 (F := Ideal) i = 0 := by
        rw [val_main_v11_apply, val_main_cst_1_apply]; exact Ideal.ofBits_zero_f32
      rw [val_main_v12_apply, Ideal.cmpf_def, h11] at hb
      change BitVec.ofBool (decide ((0 : EReal) < val_main_v10 (F := Ideal) x1 i)) = 1#1 at hb
      by_contra hn
      rw [decide_eq_false hn] at hb
      exact absurd hb (by decide)
    rw [hd] at hpos ⊢
    have hd0 : 0 < d := by exact_mod_cast hpos
    rw [Ideal.rsqrt_coe, if_neg (not_lt.mpr hd0.le), if_neg hd0.ne']
    exact ⟨_, rfl⟩
  · rw [eq_zero_of_ne_one hb, select_zero, val_main_call0_v1_apply, val_main_call0_v0_apply, val_main_cst_2_apply]
    exact ⟨0, Ideal.ofBits_zero_f32⟩

/-- Every edge weight is a real number. -/
theorem norm_real (e : Fin 850000) : ∃ r : ℝ, val_main_v29 (F := Ideal) x1 (ix1 e) = (r : EReal) := by
  rw [val_main_v29_apply, Ideal.mulf_def]
  -- each factor is an entry of the array of inverse square roots, wherever the gather reads it
  obtain ⟨a, ha⟩ : ∃ r : ℝ, val_main_v21 (F := Ideal) x1 (ix1 e) = (r : EReal) := by
    unfold val_main_v21 Host.gather; exact v14_real x1 _
  obtain ⟨b, hb⟩ : ∃ r : ℝ, val_main_v28 (F := Ideal) x1 (ix1 e) = (r : EReal) := by
    unfold val_main_v28 Host.gather; exact v14_real x1 _
  exact ⟨a * b, by rw [ha, hb, EReal.coe_mul]⟩

/-- The gathered hidden array at (a, j). -/
theorem v53_apply (a : Fin 8192) (j : Fin 256) :
    val_main_v53 (F := Ideal) x0 x1 x3 x4 x5 (ix2 a j)
      = (∑ e ∈ Finset.univ.filter (fun e : Fin 850000 => (val_main_v42 (F := Ideal) x1 (ixP e)).toInt
              = ((rowOf (N := 50000) (by decide) (val_main_v52 (F := Ideal) x3) a).val : ℤ)),
            (∑ k : Fin 128, x0 (ix2 (rowOf (N := 50000) (by decide) (val_main_v36 (F := Ideal) x1) e) k) * x4 (ix2 k j))
              * val_main_v29 (F := Ideal) x1 (ix1 e))
        + x5 (ix1 j) := by
  -- the outer gather reads the node array at the row the agent's index names
  unfold val_main_v53
  rw [gather_rows (N := 50000) (C := 256) (n := 8192) _ rfl rfl rfl rfl rfl _ _ (by decide) a j]
  generalize rowOf (N := 50000) (by decide) (val_main_v52 (F := Ideal) x3) a = r
  -- the node array is the accumulated array plus the bias, laid along the rows
  rw [val_main_v46_apply, Ideal.addf_def]
  have hbias : val_main_v45 (F := Ideal) x5 (ix2 r j) = x5 (ix1 j) := by
    rw [val_main_v45_apply, val_main_v44_apply]
    congr 1
    funext b
    match b with
    | ⟨0, _⟩ => rfl
  rw [hbias]
  refine congrArg (fun t => t + x5 (ix1 j)) ?_
  -- the accumulated array: zero plus the sum over the edges that land on row r
  unfold val_main_v43
  rw [scatterAdd_rows (N := 50000) (C := 256) (n := 850000) _ rfl rfl rfl rfl]
  have hzero : val_main_v41 (F := Ideal) (ix2 r j) = 0 := by
    rw [val_main_v41_apply, val_main_cst_8_apply]; exact Ideal.ofBits_zero_f32
  rw [hzero, zero_add]
  refine Finset.sum_congr rfl fun e _ => ?_
  -- an edge's contribution: its source row of the product x · Wg, times its weight
  rw [val_main_v40_apply, Ideal.mulf_def]
  have hw : val_main_v39 (F := Ideal) x1 (ix2 e j) = val_main_v29 (F := Ideal) x1 (ix1 e) := by
    rw [val_main_v39_apply, val_main_v38_apply]
    congr 1
    funext b
    match b with
    | ⟨0, _⟩ => rfl
  have hrow : val_main_v37 (F := Ideal) x0 x1 x4 (ix2 e j)
      = ∑ k : Fin 128, x0 (ix2 (rowOf (N := 50000) (by decide) (val_main_v36 (F := Ideal) x1) e) k) * x4 (ix2 k j) := by
    unfold val_main_v37
    rw [gather_rows (N := 50000) (C := 256) (n := 850000) _ rfl rfl rfl rfl rfl _ _ (by decide) e j, val_main_v30_apply]
    refine Finset.sum_congr rfl fun k _ => ?_
    -- the product's left index at (row, j), k is (row, k); its right index is (k, j)
    refine congrArg₂ (fun s t : EReal => s * t) (congrArg x0 (funext fun b => ?_)) (congrArg x4 (funext fun b => ?_))
    · match b with
      | ⟨0, _⟩ => rfl
      | ⟨1, _⟩ => rfl
    · match b with
      | ⟨0, _⟩ => rfl
      | ⟨1, _⟩ => rfl
  rw [hw, hrow]

end Cert.RefHidden

end
-- ==== Proof.lean ====
/-
  The certificate of the fused agent-side kernel against its reference, over the extended reals.

  Both programs compute, for each of 8192 agents, the same chain (Cert.Spec.mlpRow) of the agent's hidden row and
  action row. They differ in how the hidden row is made. The reference projects every node's features with Wg, sums
  over each node's incoming edges the projected source rows times the edge weight, adds bg, and reads the agent's node
  row. The kernel sums the raw feature rows times the edge weight first, reads the agent's node row, and only then
  projects with Wg and adds bg. The two agree because a matrix product distributes over a finite weighted sum of
  rows when every factor is a real number (Cert.LibLinear.exchange): the features and Wg are real by the precondition,
  and every edge weight is real because a node's degree is a finite count (Cert.RefHidden.norm_real).
  The kernel reads the agent's row through a take that fills rows whose index is out of range, where the
  reference's indexing clamps; under the precondition's range for the agent indices the take never fills
  (Cert.KerHost.v45_apply), and both read the same row. The edge list needs no condition: both programs wrap, clamp
  and drop its entries by the same operations.
  The frames are the generated ones; the idealization rewrote nothing, so `preserves` is trivial.
-/
import proofs.«414226_j9929964389147_2_alg».proof.Defs
import proofs.«414226_j9929964389147_2_alg».proof.Proof.Gen.Kernel
import proofs.«414226_j9929964389147_2_alg».proof.Proof.Gen.Kernel.Skeleton
import proofs.«414226_j9929964389147_2_alg».proof.Proof.Gen.Kernel.Launch
import proofs.«414226_j9929964389147_2_alg».proof.Proof.Gen.Kernel.Points
import proofs.«414226_j9929964389147_2_alg».proof.Proof.Gen.Kernel.Frame
import proofs.«414226_j9929964389147_2_alg».proof.Proof.Gen.KernelIdeal
import proofs.«414226_j9929964389147_2_alg».proof.Proof.Gen.KernelIdeal.Skeleton
import proofs.«414226_j9929964389147_2_alg».proof.Proof.Gen.KernelIdeal.Launch
import proofs.«414226_j9929964389147_2_alg».proof.Proof.Gen.KernelIdeal.Points
import proofs.«414226_j9929964389147_2_alg».proof.Proof.Gen.KernelIdeal.Frame
import proofs.«414226_j9929964389147_2_alg».proof.Proof.Gen.ReferenceIdeal
import proofs.«414226_j9929964389147_2_alg».proof.Proof.Gen.Pre_finite_inputs
import proofs.«414226_j9929964389147_2_alg».proof.Proof.Gen.KernelIdeal.Value
import proofs.«414226_j9929964389147_2_alg».proof.Proof.RefRun
import proofs.«414226_j9929964389147_2_alg».proof.Proof.RefRead
import proofs.«414226_j9929964389147_2_alg».proof.Proof.Spec
import proofs.«414226_j9929964389147_2_alg».proof.Proof.LibRows
import proofs.«414226_j9929964389147_2_alg».proof.Proof.LibLinear
import proofs.«414226_j9929964389147_2_alg».proof.Proof.PreFacts
import proofs.«414226_j9929964389147_2_alg».proof.Proof.KerNames
import proofs.«414226_j9929964389147_2_alg».proof.Proof.KerBody
import proofs.«414226_j9929964389147_2_alg».proof.Proof.KerHost
import proofs.«414226_j9929964389147_2_alg».proof.Proof.KerArray
import proofs.«414226_j9929964389147_2_alg».proof.Proof.RefMlp
import proofs.«414226_j9929964389147_2_alg».proof.Proof.RefHidden
import Idealize.ShloMosaic.Adequacy
import Idealize.ShloMosaic.Init

noncomputable section

namespace Cert.Proof

open Idealize.ShloMosaic Idealize.ShloMosaic.TcCoe Idealize.SL.Sem
open Idealize.ShloMosaic.ValueIdx Idealize.ShloMosaic.StableHlo.Predicate Cert.KerNames Cert.LibRows

section Hidden

variable (m : (ℓ : Loc Cert.KernelIdeal.nD Cert.KernelIdeal.τ Cert.KernelIdeal.sig) → Buf (Elt Ideal) ℓ)

/-- What the precondition gives on core `c`: real features, a real projection matrix, agent indices in range. -/
theorem pre_c (hpre : Cert.Pre_KernelIdeal m) (c : Dev Cert.KernelIdeal.nD) :
    (∀ i, ∃ r : ℝ, arg0 m c i = (r : EReal)) ∧ (∀ i, ∃ r : ℝ, arg4 m c i = (r : EReal))
      ∧ (∀ i, (-50000 : ℤ) ≤ (arg3 m c i).toInt ∧ (arg3 m c i).toInt < 50000) :=
  Cert.PreFacts.of_pre (arg0 m c) (arg1 m c) (arg2 m c) (arg3 m c) (arg4 m c) (arg5 m c) (arg6 m c) (arg7 m c) (arg8 m c)
    (arg9 m c) (arg10 m c) (arg11 m c) (arg12 m c) (arg13 m c) (arg14 m c) (arg15 m c) (arg16 m c) (arg17 m c) (hpre c)

/-- The kernel's hidden row is the reference's: projecting the aggregated raw features is aggregating the projected
    features. -/
theorem hidden_eq (hpre : Cert.Pre_KernelIdeal m) (c : Dev Cert.KernelIdeal.nD) (a : Fin 8192) (j : Fin 256) :
    (∑ k : Fin 128, st45 m c (ix2 a k) * arg4 m c (ix2 k j)) + st46 m c (ix2 (0 : Fin 1) j)
      = Cert.ReferenceIdeal.Read.val_main_v53 (F := Ideal) (arg0 m c) (arg1 m c) (arg3 m c) (arg4 m c) (arg5 m c) (ix2 a j) := by
  obtain ⟨h0, h4, h3⟩ := pre_c m hpre c
  rw [Cert.RefHidden.v53_apply, Cert.KerHost.v46_apply]
  refine congrArg (· + arg5 m c (ix1 j)) ?_
  simp only [Cert.KerHost.v45_apply m c (fun a => h3 (ix1 a))]
  exact Cert.LibLinear.exchange _
    (fun e k => arg0 m c (ix2 (rowOf (N := 50000) (by decide)
      (Cert.ReferenceIdeal.Read.val_main_v36 (F := Ideal) (arg1 m c)) e) k))
    (fun e => Cert.ReferenceIdeal.Read.val_main_v29 (F := Ideal) (arg1 m c) (ix1 e))
    (fun k => arg4 m c (ix2 k j))
    (fun e k => h0 _) (fun e => Cert.RefHidden.norm_real (arg1 m c) e) (fun k => h4 _)

end Hidden

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same [8192 × 1] array: row by row the chain of the same hidden row and action row. -/
theorem algebraic : Cert.algebraic_KernelIdeal_ReferenceIdeal := by
  intro m ρ m' ρ' hpre hagree
  refine ⟨fun c => Cert.KerArray.arrK m c, Cert.KerArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v121_eq]
  obtain ⟨g0, g1, g2, g3, g4, g5, g6, g7, g8, g9, g10, g11, g12, g13, g14, g15, g16, g17⟩ := hagree c
  rw [g0, g1, g2, g3, g4, g5, g6, g7, g8, g9, g10, g11, g12, g13, g14, g15, g16, g17]
  funext i
  obtain ⟨a, rfl⟩ : ∃ a : Fin 8192, i = ix2 a (0 : Fin 1) :=
    ⟨⟨(i 0).val, (i 0).isLt⟩, funext fun d => Fin.ext (by
      match d with
      | ⟨0, _⟩ => rfl
      | ⟨1, _⟩ => have h1 : (i 1).val < 1 := (i 1).isLt; show (i 1).val = 0; omega)⟩
  refine (Cert.RefMlp.ref_apply (arg0 m c) (arg1 m c) (arg2 m c) (arg3 m c) (arg4 m c) (arg5 m c) (arg6 m c) (arg7 m c)
    (arg8 m c) (arg9 m c) (arg10 m c) (arg11 m c) (arg12 m c) (arg13 m c) (arg14 m c) (arg15 m c) (arg16 m c) (arg17 m c) a).trans ?_
  show _ = Cert.KerArray.rowK m c a
  unfold Cert.KerArray.rowK
  have e47 : (fun c' => st47 m c (ix2 (0 : Fin 1) c')) = fun c' => arg7 m c (ix1 c') :=
    funext fun c' => Cert.KerHost.v47_apply m c c'
  have e48 : (fun c' => st48 m c (ix2 (0 : Fin 1) c')) = fun c' => arg8 m c (ix1 c') :=
    funext fun c' => Cert.KerHost.v48_apply m c c'
  have e49 : (fun c' => st49 m c (ix2 (0 : Fin 1) c')) = fun c' => arg9 m c (ix1 c') :=
    funext fun c' => Cert.KerHost.v49_apply m c c'
  have e50 : (fun c' => st50 m c (ix2 (0 : Fin 1) c')) = fun c' => arg11 m c (ix1 c') :=
    funext fun c' => Cert.KerHost.v50_apply m c c'
  have e51 : (fun c' => st51 m c (ix2 (0 : Fin 1) c')) = fun c' => arg12 m c (ix1 c') :=
    funext fun c' => Cert.KerHost.v51_apply m c c'
  have e52 : (fun c' => st52 m c (ix2 (0 : Fin 1) c')) = fun c' => arg13 m c (ix1 c') :=
    funext fun c' => Cert.KerHost.v52_apply m c c'
  have e53 : (fun c' => st53 m c (ix2 (0 : Fin 1) c')) = fun c' => arg15 m c (ix1 c') :=
    funext fun c' => Cert.KerHost.v53_apply m c c'
  have e54 : (fun c' => st54 m c (ix2 (0 : Fin 1) c')) = fun c' => arg16 m c (ix2 c' (0 : Fin 1)) :=
    funext fun c' => Cert.KerHost.v54_apply m c c'
  have eH : (fun j => (∑ k : Fin 128, st45 m c (ix2 a k) * arg4 m c (ix2 k j)) + st46 m c (ix2 (0 : Fin 1) j))
      = fun j => Cert.ReferenceIdeal.Read.val_main_v53 (F := Ideal) (arg0 m c) (arg1 m c) (arg3 m c) (arg4 m c)
          (arg5 m c) (ix2 a j) :=
    funext fun j => hidden_eq m hpre c a j
  rw [eH, e47, e48, e49, e50, e51, e52, e53, e54, Cert.KerHost.v55_apply m c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
